-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v10_1)) (v3 : (c : Dev Cert.KernelIdeal.nD) → Buf (Elt Ideal) ((c.tc : Thread Cert.KernelIdeal.nD Cert.KernelIdeal.τ).loc Cert.KernelIdeal.main_v10_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v10_1) = v2 c
          ∧ r.2.mem ((c.tc : Thread Cert.KernelIdeal.nD Cert.KernelIdeal.τ).loc Cert.KernelIdeal.main_v10_2) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v34) = v2 c
          ∧ r.2.mem ((c.tc : Thread Cert.ReferenceIdeal.nD Cert.ReferenceIdeal.τ).loc Cert.ReferenceIdeal.main_v23) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x16x16 : Shape := ⟨4, ![64, 512, 16, 16]⟩
abbrev S64 : Shape := ⟨1, ![64]⟩
abbrev S1x512x2000x10 : Shape := ⟨4, ![1, 512, 2000, 10]⟩
abbrev S_ : Shape := ⟨0, ![]⟩

class Facts : Prop where
  bcast_S_S64x512x16x16 : S_.BroadcastsInDim S64x512x16x16 (![] : Fin 0 → Fin S64x512x16x16.rank)
  reducesTo_S64x512x16x16_S_d0_1_2_3 : S64x512x16x16.ReducesTo [0, 1, 2, 3] S_
  h_S_ : 0 < S_.numel
  bcast_S_S1x512x2000x10 : S_.BroadcastsInDim S1x512x2000x10 (![] : Fin 0 → Fin S1x512x2000x10.rank)
  reducesTo_S1x512x2000x10_S_d0_1_2_3 : S1x512x2000x10.ReducesTo [0, 1, 2, 3] S_
  bcast_S_S64 : S_.BroadcastsInDim S64 (![] : Fin 0 → Fin S64.rank)
  reducesTo_S64_S_d0 : S64.ReducesTo [0] S_

variable [Facts]

def fn {F : FTy → Type} [FloatOps F] (main_arg0 : FVec F S64x512x16x16 .f32) (main_arg1 : IVec S64 32) (main_arg2 : FVec F S1x512x2000x10 .f32) : IVec S_ 1 :=
  let main_v0 : FVec F S64x512x16x16 .f32 := Host.absf main_arg0
  let main_cst : FVec F S_ .f32 := constant S_ .f32 0x7F800000#32
  let main_v1 : FVec F S64x512x16x16 .f32 := broadcastInDim S64x512x16x16 ![] bcast_S_S64x512x16x16 main_cst
  let main_v2 : IVec S64x512x16x16 1 := cmpf .olt main_v0 main_v1
  let main_c : IVec S_ 1 := constantI S_ 1 1#1
  let main_v3 : IVec S_ 1 := (fun x v => Host.reduce IntOp.andi x v reducesTo_S64x512x16x16_S_d0_1_2_3 h_S_) main_v2 main_c
  let main_v4 : FVec F S1x512x2000x10 .f32 := Host.absf main_arg2
  let main_cst_0 : FVec F S_ .f32 := constant S_ .f32 0x7F800000#32
  let main_v5 : FVec F S1x512x2000x10 .f32 := broadcastInDim S1x512x2000x10 ![] bcast_S_S1x512x2000x10 main_cst_0
  let main_v6 : IVec S1x512x2000x10 1 := cmpf .olt main_v4 main_v5
  let main_c_1 : IVec S_ 1 := constantI S_ 1 1#1
  let main_v7 : IVec S_ 1 := (fun x v => Host.reduce IntOp.andi x v reducesTo_S1x512x2000x10_S_d0_1_2_3 h_S_) main_v6 main_c_1
  let main_v8 : IVec S_ 1 := andi main_v3 main_v7
  let main_c_2 : IVec S_ 32 := constantI S_ 32 0#32
  let main_v9 : IVec S64 32 := broadcastInDim S64 ![] bcast_S_S64 main_c_2
  let main_v10 : IVec S64 1 := cmpi .sge main_arg1 main_v9
  let main_c_3 : IVec S_ 32 := constantI S_ 32 10#32
  let main_v11 : IVec S64 32 := broadcastInDim S64 ![] bcast_S_S64 main_c_3
  let main_v12 : IVec S64 1 := cmpi .slt main_arg1 main_v11
  let main_v13 : IVec S64 1 := andi main_v10 main_v12
  let main_c_4 : IVec S_ 1 := constantI S_ 1 1#1
  let main_v14 : IVec S_ 1 := (fun x v => Host.reduce IntOp.andi x v reducesTo_S64_S_d0 h_S_) main_v13 main_c_4
  let main_v15 : IVec S_ 1 := andi main_v8 main_v14
  main_v15
-- ==== Kernel.lean ====
abbrev S64x512x16x16 : Shape := ⟨4, ![64, 512, 16, 16]⟩
abbrev S64 : Shape := ⟨1, ![64]⟩
abbrev S1x512x2000x10 : Shape := ⟨4, ![1, 512, 2000, 10]⟩
abbrev S64x512x256 : Shape := ⟨3, ![64, 512, 256]⟩
abbrev S1x10x512x2000 : Shape := ⟨4, ![1, 10, 512, 2000]⟩
abbrev S_ : Shape := ⟨0, ![]⟩
abbrev S64x1 : Shape := ⟨2, ![64, 1]⟩
abbrev S64x256x2000 : Shape := ⟨3, ![64, 256, 2000]⟩
abbrev S1x512x256 : Shape := ⟨3, ![1, 512, 256]⟩
abbrev S1 : Shape := ⟨1, ![1]⟩
abbrev S1x1x512x2000 : Shape := ⟨4, ![1, 1, 512, 2000]⟩
abbrev S1x256x2000 : Shape := ⟨3, ![1, 256, 2000]⟩
abbrev S512x256 : Shape := ⟨2, ![512, 256]⟩
abbrev S512x2000 : Shape := ⟨2, ![512, 2000]⟩
abbrev S256x2000 : Shape := ⟨2, ![256, 2000]⟩
abbrev S256 : Shape := ⟨1, ![256]⟩
abbrev S256x1 : Shape := ⟨2, ![256, 1]⟩
abbrev S2000 : Shape := ⟨1, ![2000]⟩
abbrev S1x2000 : Shape := ⟨2, ![1, 2000]⟩

abbrev nBuf : Space → Nat
  | .hbm => 19
  | .vmem => 10
  | .smem => 2
  | _ => 0

abbrev bufTy : (tb : Table) → Fin (tcTables nBuf tb) → BufTy
  | .hbm, ⟨0, _⟩ => ⟨S64x512x16x16, .f32⟩
  | .hbm, ⟨1, _⟩ => ⟨S64, .i32⟩
  | .hbm, ⟨2, _⟩ => ⟨S1x512x2000x10, .f32⟩
  | .hbm, ⟨3, _⟩ => ⟨S64x512x256, .f32⟩
  | .hbm, ⟨4, _⟩ => ⟨S1x10x512x2000, .f32⟩
  | .hbm, ⟨5, _⟩ => ⟨S64, .i32⟩
  | .hbm, ⟨6, _⟩ => ⟨S64, .i32⟩
  | .hbm, ⟨7, _⟩ => ⟨S_, .i32⟩
  | .hbm, ⟨8, _⟩ => ⟨S64, .i32⟩
  | .hbm, ⟨9, _⟩ => ⟨S64, .i1⟩
  | .hbm, ⟨10, _⟩ => ⟨S_, .i32⟩
  | .hbm, ⟨11, _⟩ => ⟨S64, .i32⟩
  | .hbm, ⟨12, _⟩ => ⟨S64, .i32⟩
  | .hbm, ⟨13, _⟩ => ⟨S64, .i32⟩
  | .hbm, ⟨14, _⟩ => ⟨S64x1, .i32⟩
  | .hbm, ⟨15, _⟩ => ⟨S64x512x256, .f32⟩
  | .hbm, ⟨16, _⟩ => ⟨S64x256x2000, .f32⟩
  | .hbm, ⟨17, _⟩ => ⟨S64x256x2000, .f32⟩
  | .hbm, ⟨18, _⟩ => ⟨S64x512x16x16, .f32⟩
  | .local _ .vmem, ⟨0, _⟩ => ⟨S1x512x256, .f32⟩
  | .local _ .vmem, ⟨1, _⟩ => ⟨S1x512x256, .f32⟩
  | .local _ .vmem, ⟨2, _⟩ => ⟨S1x1x512x2000, .f32⟩
  | .local _ .vmem, ⟨3, _⟩ => ⟨S1x1x512x2000, .f32⟩
  | .local _ .vmem, ⟨4, _⟩ => ⟨S1x512x256, .f32⟩
  | .local _ .vmem, ⟨5, _⟩ => ⟨S1x512x256, .f32⟩
  | .local _ .vmem, ⟨6, _⟩ => ⟨S1x256x2000, .f32⟩
  | .local _ .vmem, ⟨7, _⟩ => ⟨S1x256x2000, .f32⟩
  | .local _ .vmem, ⟨8, _⟩ => ⟨S1x256x2000, .f32⟩
  | .local _ .vmem, ⟨9, _⟩ => ⟨S1x256x2000, .f32⟩
  | .local _ .smem, ⟨0, _⟩ => ⟨S64, .i32⟩
  | .local _ .smem, ⟨1, _⟩ => ⟨S64, .i32⟩
  | _, _ => ⟨S64x512x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1_0 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v10_0 : Ref sig .tc := ⟨.hbm, 15, rfl⟩
abbrev main_v10_1 : Ref sig .tc := ⟨.hbm, 16, rfl⟩
abbrev main_v10_2 : Ref sig .tc := ⟨.hbm, 17, rfl⟩
abbrev main_v11 : Ref sig .tc := ⟨.hbm, 18, rfl⟩
abbrev main_v2 : Ref sig .tc := ⟨.smem, 0, rfl⟩
abbrev main_v9 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![64], ![false]⟩

abbrev pre0 : Pipeline.Prefetch sig := ⟨2, ![main_v2.idx, main_v9.idx], fun | 0 => main_v2.names | 1 => main_v9.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S64) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_1 (k0_off1_inb : ∀ i : grid0.Coords, ∀ a, (k0_off1 i) a + S1.size a ≤ S64.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 1 (Rect.unit (s := S64) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S64) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S64) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S64.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S64) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512x2000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x2000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x2000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S64x512x16x16_S64x512x256 : S64x512x16x16.ShapeCasts S64x512x256
  transposes_S1x512x2000x10_S1x10x512x2000_0_3_1_2 : S1x512x2000x10.Transposes [0, 3, 1, 2] S1x10x512x2000
  bcast_S_S64 : S_.BroadcastsInDim S64 (![] : Fin 0 → Fin S64.rank)
  bcast_S64_S64x1_0 : S64.BroadcastsInDim S64x1 (![0] : Fin 1 → Fin S64x1.rank)
  numel1_S1 : S1.numel = 1
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  inb_S1x1x512x2000_S1x1x512x2000_0_0_0_0 : ∀ a, (![0, 0, 0, 0] : Fin 4 → Nat) a + S1x1x512x2000.size a ≤ S1x1x512x2000.size a
  h_S1x1x512x2000 : 0 < S1x1x512x2000.numel
  shapeCasts_S1x1x512x2000_S512x2000 : S1x1x512x2000.ShapeCasts S512x2000
  reduces_S512x256_S256 : S512x256.Reduces [0] S256
  shapeCasts_S256_S256x1 : S256.ShapeCasts S256x1
  reduces_S512x2000_S2000 : S512x2000.Reduces [0] S2000
  shapeCasts_S2000_S1x2000 : S2000.ShapeCasts S1x2000
  broadcasts_S256x1_S256x2000 : S256x1.Broadcasts S256x2000
  broadcasts_S1x2000_S256x2000 : S1x2000.Broadcasts S256x2000
  reduces_S256x2000_S256 : S256x2000.Reduces [1] S256
  shapeCasts_S512x256_S1x512x256 : S512x256.ShapeCasts S1x512x256
  inb_S1x256x2000_S1x256x2000_0_0_0 : ∀ a, (![0, 0, 0] : Fin 3 → Nat) a + S1x256x2000.size a ≤ S1x256x2000.size a
  h_S1x256x2000 : 0 < S1x256x2000.numel
  shapeCasts_S1x256x2000_S256x2000 : S1x256x2000.ShapeCasts S256x2000
  shapeCasts_S256x2000_S1x256x2000 : S256x2000.ShapeCasts S1x256x2000
  shapeCasts_S64x512x256_S64x512x16x16 : S64x512x256.ShapeCasts S64x512x16x16
  gather_S64_S64x1_S64_n_0_n_n_0_1_1_wf : GatherDims.WF S64 S64x1 S64 [] [0] [] [0] [] 1 ![1]
  dot_S512x256_S512x2000_S256x2000_0_0_1_1_n_n_wf : DotDims.WF S512x256 S512x2000 S256x2000 [0] [0] [1] [1] [] []
  dot_S512x2000_S256x2000_S512x256_1_1_0_0_n_n_wf : DotDims.WF S512x2000 S256x2000 S512x256 [1] [1] [0] [0] [] []
  hrank0 : 0 < grid0.rank
  k0_off1_inb : ∀ i : grid0.Coords, ∀ a, (k0_off1 i) a + S1.size a ≤ S64.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'
  hstage0_4 : ∀ j, (stage0_4 j).IsWhole
  nbuf0_4 : grid0.bufCount reads0_4 false = 2
  hreads0_4 : ∀ {F : FTy → Type} [FloatOps F] (pf : pre0.Contents (Elt F)) (i i' : grid0.Coords), (∀ a, reads0_4 a = true → i a = i' a) → cc0_transform_4 k0_off1_inb numel1_S1 pf i = cc0_transform_4 k0_off1_inb numel1_S1 pf i'

variable [Facts₀]

def comparator_i32_i32_d0 : BitVec 32 × BitVec 32 → BitVec 32 × BitVec 32 → BitVec 1 :=
  fun l r =>
    let v2 := IntOp.cmpi .slt l.1 r.1
    v2
def gather_S64_S64x1_S64_n_0_n_n_0_1_1 : GatherDims S64 S64x1 S64 where
  offsetDims := []
  collapsedSliceDims := [0]
  operandBatchingDims := []
  startIndicesBatchingDims := []
  startIndexMap := [0]
  indexVectorDim := 1
  sliceSizes := ![1]
  wf := gather_S64_S64x1_S64_n_0_n_n_0_1_1_wf
def dot_S512x256_S512x2000_S256x2000_0_0_1_1_n_n : DotDims S512x256 S512x2000 S256x2000 where
  lhsContracting := [0]
  rhsContracting := [0]
  lhsNonContracting := [1]
  rhsNonContracting := [1]
  lhsBatch := []
  rhsBatch := []
  wf := dot_S512x256_S512x2000_S256x2000_0_0_1_1_n_n_wf
def dot_S512x2000_S256x2000_S512x256_1_1_0_0_n_n : DotDims S512x2000 S256x2000 S512x256 where
  lhsContracting := [1]
  rhsContracting := [1]
  lhsNonContracting := [0]
  rhsNonContracting := [0]
  lhsBatch := []
  rhsBatch := []
  wf := dot_S512x2000_S256x2000_S512x256_1_1_0_0_n_n_wf

abbrev spec0_0 : Pipeline.WinSpec sig grid0.rank :=
  Pipeline.WinSpec.ofSpec (Memref.whole main_v0) S1x512x256.size reads0_0 false false 2 stage0_0 sem0_0 nbuf0_0 hstage0_0

abbrev spec0_1 : Pipeline.WinSpec sig grid0.rank :=
  Pipeline.WinSpec.ofSpec (Memref.whole main_v1) S1x1x512x2000.size reads0_1 false false 2 stage0_1 sem0_1 nbuf0_1 hstage0_1

abbrev spec0_2 : Pipeline.WinSpec sig grid0.rank :=
  Pipeline.WinSpec.ofSpec (Memref.whole main_v10_0) S1x512x256.size reads0_2 true false 2 stage0_2 sem0_2 nbuf0_2 hstage0_2

abbrev spec0_3 : Pipeline.WinSpec sig grid0.rank :=
  Pipeline.WinSpec.ofSpec (Memref.whole main_v10_1) S1x256x2000.size reads0_3 true false 2 stage0_3 sem0_3 nbuf0_3 hstage0_3

abbrev spec0_4 : Pipeline.WinSpec sig grid0.rank :=
  Pipeline.WinSpec.ofSpec (Memref.whole main_v10_2) S1x256x2000.size reads0_4 true false 2 stage0_4 sem0_4 nbuf0_4 hstage0_4

abbrev spec0 : Fin 5 → Pipeline.WinSpec sig grid0.rank := fun | 0 => spec0_0 | 1 => spec0_1 | 2 => spec0_2 | 3 => spec0_3 | 4 => spec0_4 | ⟨_ + 5, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | ⟨_ + 5, h⟩ => absurd h (Nat.not_lt.2 (Nat.le_add_left _ _))
abbrev ix0 (pf : pre0.Contents (Elt F)) : (w : Fin 5) → grid0.Coords → Fin (spec0 w).shape.rank → Nat := fun | 0 => cc0_transform_0 k0_off1_inb numel1_S1 pf | 1 => cc0_transform_1 k0_off1_inb numel1_S1 pf | 2 => cc0_transform_2 k0_off1_inb numel1_S1 pf | 3 => cc0_transform_3 k0_off1_inb numel1_S1 pf | 4 => cc0_transform_4 k0_off1_inb numel1_S1 pf | ⟨_ + 5, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 pf | 3 => hreads0_3 pf | 4 => hreads0_4 pf | ⟨_ + 5, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x512x256.size a ≤ S64x512x256.size a), EltTy.bits .f32 = 32 ∨ (Rect.block (s := S64x512x256) S1x512x256.size (cc0_transform_0 k0_off1_inb numel1_S1 pf i) h).WholeWords (EltTy.packing .f32)) ∧
  (∀ i : grid0.Coords, ∃ h : (∀ a, (cc0_transform_1 k0_off1_inb numel1_S1 pf i a + 1) * S1x1x512x2000.size a ≤ S1x10x512x2000.size a), EltTy.bits .f32 = 32 ∨ (Rect.block (s := S1x10x512x2000) S1x1x512x2000.size (cc0_transform_1 k0_off1_inb numel1_S1 pf i) h).WholeWords (EltTy.packing .f32)) ∧
  (∀ i : grid0.Coords, ∃ h : (∀ a, (cc0_transform_2 k0_off1_inb numel1_S1 pf i a + 1) * S1x512x256.size a ≤ S64x512x256.size a), EltTy.bits .f32 = 32 ∨ (Rect.block (s := S64x512x256) S1x512x256.size (cc0_transform_2 k0_off1_inb numel1_S1 pf i) h).WholeWords (EltTy.packing .f32)) ∧
  (∀ i : grid0.Coords, ∃ h : (∀ a, (cc0_transform_3 k0_off1_inb numel1_S1 pf i a + 1) * S1x256x2000.size a ≤ S64x256x2000.size a), EltTy.bits .f32 = 32 ∨ (Rect.block (s := S64x256x2000) S1x256x2000.size (cc0_transform_3 k0_off1_inb numel1_S1 pf i) h).WholeWords (EltTy.packing .f32)) ∧
  (∀ i : grid0.Coords, ∃ h : (∀ a, (cc0_transform_4 k0_off1_inb numel1_S1 pf i a + 1) * S1x256x2000.size a ≤ S64x256x2000.size a), EltTy.bits .f32 = 32 ∨ (Rect.block (s := S64x256x2000) S1x256x2000.size (cc0_transform_4 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2.1 i).elim fun h _ => h a | 4 => fun i a => (hok.2.2.2.2 i).elim fun h _ => h a | ⟨_ + 5, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2.1 i).elim fun _ h => h | 2 => fun i => (hok.2.2.1 i).elim fun _ h => h | 3 => fun i => (hok.2.2.2.1 i).elim fun _ h => h | 4 => fun i => (hok.2.2.2.2 i).elim fun _ h => h | ⟨_ + 5, h⟩ => absurd h (Nat.not_lt.2 (Nat.le_add_left _ _))

class Facts : Prop extends Facts₀ where
  harr0 : ∀ w, (spec0 w).arr.IsWhole

variable [Facts]
-- ==== ReferenceIdeal.lean ====
abbrev S64x512x16x16 : Shape := ⟨4, ![64, 512, 16, 16]⟩
abbrev S64 : Shape := ⟨1, ![64]⟩
abbrev S1x512x2000x10 : Shape := ⟨4, ![1, 512, 2000, 10]⟩
abbrev S512x2000x10 : Shape := ⟨3, ![512, 2000, 10]⟩
abbrev S_ : Shape := ⟨0, ![]⟩
abbrev S64x1 : Shape := ⟨2, ![64, 1]⟩
abbrev S512x2000x64 : Shape := ⟨3, ![512, 2000, 64]⟩
abbrev S64x512x2000 : Shape := ⟨3, ![64, 512, 2000]⟩
abbrev S64x512x256 : Shape := ⟨3, ![64, 512, 256]⟩
abbrev S64x256x2000 : Shape := ⟨3, ![64, 256, 2000]⟩
abbrev S64x256 : Shape := ⟨2, ![64, 256]⟩
abbrev S64x256x1 : Shape := ⟨3, ![64, 256, 1]⟩
abbrev S64x2000 : Shape := ⟨2, ![64, 2000]⟩
abbrev S64x1x2000 : Shape := ⟨3, ![64, 1, 2000]⟩

abbrev nBuf : Space → Nat
  | .hbm => 62
  | .vmem => 0
  | .smem => 0
  | _ => 0

abbrev bufTy : (tb : Table) → Fin (tcTables nBuf tb) → BufTy
  | .hbm, ⟨0, _⟩ => ⟨S64x512x16x16, .f32⟩
  | .hbm, ⟨1, _⟩ => ⟨S64, .i32⟩
  | .hbm, ⟨2, _⟩ => ⟨S1x512x2000x10, .f32⟩
  | .hbm, ⟨3, _⟩ => ⟨S512x2000x10, .f32⟩
  | .hbm, ⟨4, _⟩ => ⟨S_, .i32⟩
  | .hbm, ⟨5, _⟩ => ⟨S64, .i32⟩
  | .hbm, ⟨6, _⟩ => ⟨S64, .i1⟩
  | .hbm, ⟨7, _⟩ => ⟨S_, .i32⟩
  | .hbm, ⟨8, _⟩ => ⟨S64, .i32⟩
  | .hbm, ⟨9, _⟩ => ⟨S64, .i32⟩
  | .hbm, ⟨10, _⟩ => ⟨S64, .i32⟩
  | .hbm, ⟨11, _⟩ => ⟨S64x1, .i32⟩
  | .hbm, ⟨12, _⟩ => ⟨S512x2000x64, .f32⟩
  | .hbm, ⟨13, _⟩ => ⟨S64x512x2000, .f32⟩
  | .hbm, ⟨14, _⟩ => ⟨S64x512x256, .f32⟩
  | .hbm, ⟨15, _⟩ => ⟨S64x256x2000, .f32⟩
  | .hbm, ⟨16, _⟩ => ⟨S64x512x256, .f32⟩
  | .hbm, ⟨17, _⟩ => ⟨S_, .f32⟩
  | .hbm, ⟨18, _⟩ => ⟨S64x256, .f32⟩
  | .hbm, ⟨19, _⟩ => ⟨S64x256x1, .f32⟩
  | .hbm, ⟨20, _⟩ => ⟨S64x512x2000, .f32⟩
  | .hbm, ⟨21, _⟩ => ⟨S_, .f32⟩
  | .hbm, ⟨22, _⟩ => ⟨S64x2000, .f32⟩
  | .hbm, ⟨23, _⟩ => ⟨S64x1x2000, .f32⟩
  | .hbm, ⟨24, _⟩ => ⟨S_, .f32⟩
  | .hbm, ⟨25, _⟩ => ⟨S64x256x2000, .f32⟩
  | .hbm, ⟨26, _⟩ => ⟨S64x256x2000, .f32⟩
  | .hbm, ⟨27, _⟩ => ⟨S64x256x2000, .f32⟩
  | .hbm, ⟨28, _⟩ => ⟨S64x256x2000, .f32⟩
  | .hbm, ⟨29, _⟩ => ⟨S64x256x2000, .f32⟩
  | .hbm, ⟨30, _⟩ => ⟨S64x256x2000, .f32⟩
  | .hbm, ⟨31, _⟩ => ⟨S_, .f32⟩
  | .hbm, ⟨32, _⟩ => ⟨S64x256, .f32⟩
  | .hbm, ⟨33, _⟩ => ⟨S_, .f32⟩
  | .hbm, ⟨34, _⟩ => ⟨S64x256, .f32⟩
  | .hbm, ⟨35, _⟩ => ⟨S64x256, .f32⟩
  | .hbm, ⟨36, _⟩ => ⟨S64x256x1, .f32⟩
  | .hbm, ⟨37, _⟩ => ⟨S64x256x2000, .f32⟩
  | .hbm, ⟨38, _⟩ => ⟨S64x256x2000, .f32⟩
  | .hbm, ⟨39, _⟩ => ⟨S64x256x2000, .f32⟩
  | .hbm, ⟨40, _⟩ => ⟨S_, .f32⟩
  | .hbm, ⟨41, _⟩ => ⟨S64x256, .f32⟩
  | .hbm, ⟨42, _⟩ => ⟨S64x256x1, .f32⟩
  | .hbm, ⟨43, _⟩ => ⟨S64x256x1, .f32⟩
  | .hbm, ⟨44, _⟩ => ⟨S64x256x2000, .f32⟩
  | .hbm, ⟨45, _⟩ => ⟨S64x256x2000, .f32⟩
  | .hbm, ⟨46, _⟩ => ⟨S_, .f32⟩
  | .hbm, ⟨47, _⟩ => ⟨S64x256, .f32⟩
  | .hbm, ⟨48, _⟩ => ⟨S_, .f32⟩
  | .hbm, ⟨49, _⟩ => ⟨S64x256, .f32⟩
  | .hbm, ⟨50, _⟩ => ⟨S64x256, .f32⟩
  | .hbm, ⟨51, _⟩ => ⟨S64x256x1, .f32⟩
  | .hbm, ⟨52, _⟩ => ⟨S64x256x2000, .f32⟩
  | .hbm, ⟨53, _⟩ => ⟨S64x256x2000, .f32⟩
  | .hbm, ⟨54, _⟩ => ⟨S64x256x2000, .f32⟩
  | .hbm, ⟨55, _⟩ => ⟨S_, .f32⟩
  | .hbm, ⟨56, _⟩ => ⟨S64x256, .f32⟩
  | .hbm, ⟨57, _⟩ => ⟨S64x256x1, .f32⟩
  | .hbm, ⟨58, _⟩ => ⟨S64x256x2000, .f32⟩
  | .hbm, ⟨59, _⟩ => ⟨S64x256x2000, .f32⟩
  | .hbm, ⟨60, _⟩ => ⟨S64x512x256, .f32⟩
  | .hbm, ⟨61, _⟩ => ⟨S64x512x16x16, .f32⟩
  | _, _ => ⟨S64x512x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_call0_cst : Ref sig .tc := ⟨.hbm, 31, rfl⟩
abbrev main_call0_v0 : Ref sig .tc := ⟨.hbm, 32, rfl⟩
abbrev main_call0_cst_0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_v5 : Ref sig .tc := ⟨.hbm, 38, rfl⟩
abbrev main_call0_v6 : Ref sig .tc := ⟨.hbm, 39, rfl⟩
abbrev main_call0_cst_1 : Ref sig .tc := ⟨.hbm, 40, rfl⟩
abbrev main_call0_v7 : Ref sig .tc := ⟨.hbm, 41, rfl⟩
abbrev main_call0_v8 : Ref sig .tc := ⟨.hbm, 42, rfl⟩
abbrev main_call0_v9 : Ref sig .tc := ⟨.hbm, 43, rfl⟩
abbrev main_call0_v10 : Ref sig .tc := ⟨.hbm, 44, rfl⟩
abbrev main_v23 : Ref sig .tc := ⟨.hbm, 45, rfl⟩
abbrev main_cst_3 : Ref sig .tc := ⟨.hbm, 46, rfl⟩
abbrev main_v24 : Ref sig .tc := ⟨.hbm, 47, rfl⟩
abbrev main_cst_4 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_5 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩

abbrev nD : Nat := 1
abbrev τ : Topo := Topo.v7x

variable {F : FTy → Type} [FloatOps F]

class Facts₀ : Prop where
  shapeCasts_S1x512x2000x10_S512x2000x10 : S1x512x2000x10.ShapeCasts S512x2000x10
  bcast_S_S64 : S_.BroadcastsInDim S64 (![] : Fin 0 → Fin S64.rank)
  bcast_S64_S64x1_0 : S64.BroadcastsInDim S64x1 (![0] : Fin 1 → Fin S64x1.rank)
  transposes_S512x2000x64_S64x512x2000_2_0_1 : S512x2000x64.Transposes [2, 0, 1] S64x512x2000
  shapeCasts_S64x512x16x16_S64x512x256 : S64x512x16x16.ShapeCasts S64x512x256
  reducesTo_S64x512x256_S64x256_d1 : S64x512x256.ReducesTo [1] S64x256
  h_S_ : 0 < S_.numel
  bcast_S64x256_S64x256x1_0_1 : S64x256.BroadcastsInDim S64x256x1 (![0, 1] : Fin 2 → Fin S64x256x1.rank)
  reducesTo_S64x512x2000_S64x2000_d1 : S64x512x2000.ReducesTo [1] S64x2000
  bcast_S64x2000_S64x1x2000_0_2 : S64x2000.BroadcastsInDim S64x1x2000 (![0, 2] : Fin 2 → Fin S64x1x2000.rank)
  bcast_S_S64x256x2000 : S_.BroadcastsInDim S64x256x2000 (![] : Fin 0 → Fin S64x256x2000.rank)
  bcast_S64x256x1_S64x256x2000_0_1_2 : S64x256x1.BroadcastsInDim S64x256x2000 (![0, 1, 2] : Fin 3 → Fin S64x256x2000.rank)
  bcast_S64x1x2000_S64x256x2000_0_1_2 : S64x1x2000.BroadcastsInDim S64x256x2000 (![0, 1, 2] : Fin 3 → Fin S64x256x2000.rank)
  reducesTo_S64x256x2000_S64x256_d2 : S64x256x2000.ReducesTo [2] S64x256
  bcast_S_S64x256 : S_.BroadcastsInDim S64x256 (![] : Fin 0 → Fin S64x256.rank)
  shapeCasts_S64x512x256_S64x512x16x16 : S64x512x256.ShapeCasts S64x512x16x16
  gather_S512x2000x10_S64x1_S512x2000x64_01_2_n_n_2_1_51220001_wf : GatherDims.WF S512x2000x10 S64x1 S512x2000x64 [0, 1] [2] [] [2] [] 1 ![512, 2000, 1]
  dot_S64x512x256_S64x512x2000_S64x256x2000_1_1_2_2_0_0_wf : DotDims.WF S64x512x256 S64x512x2000 S64x256x2000 [1] [1] [2] [2] [0] [0]
  dot_S64x512x2000_S64x256x2000_S64x512x256_2_2_1_1_0_0_wf : DotDims.WF S64x512x2000 S64x256x2000 S64x512x256 [2] [2] [1] [1] [0] [0]

variable [Facts₀]

def gather_S512x2000x10_S64x1_S512x2000x64_01_2_n_n_2_1_51220001 : GatherDims S512x2000x10 S64x1 S512x2000x64 where
  offsetDims := [0, 1]
  collapsedSliceDims := [2]
  operandBatchingDims := []
  startIndicesBatchingDims := []
  startIndexMap := [2]
  indexVectorDim := 1
  sliceSizes := ![512, 2000, 1]
  wf := gather_S512x2000x10_S64x1_S512x2000x64_01_2_n_n_2_1_51220001_wf
def dot_S64x512x256_S64x512x2000_S64x256x2000_1_1_2_2_0_0 : DotDims S64x512x256 S64x512x2000 S64x256x2000 where
  lhsContracting := [1]
  rhsContracting := [1]
  lhsNonContracting := [2]
  rhsNonContracting := [2]
  lhsBatch := [0]
  rhsBatch := [0]
  wf := dot_S64x512x256_S64x512x2000_S64x256x2000_1_1_2_2_0_0_wf
def dot_S64x512x2000_S64x256x2000_S64x512x256_2_2_1_1_0_0 : DotDims S64x512x2000 S64x256x2000 S64x512x256 where
  lhsContracting := [2]
  rhsContracting := [2]
  lhsNonContracting := [1]
  rhsNonContracting := [1]
  lhsBatch := [0]
  rhsBatch := [0]
  wf := dot_S64x512x2000_S64x256x2000_S64x512x256_2_2_1_1_0_0_wf

class Facts : Prop extends Facts₀ where

variable [Facts]
-- ==== Proof.TablesW.lean ====
/-
  The two prefetched tables of the kernel, and the side condition of its pipeline.

  The program sorts the 64 class labels (a stable sort of the pairs (label, position) by label, signed) and keeps
  the permuted positions: table 0, `perm`. It then reads the labels through that table: table 1, the labels in
  sorted order. Every index map of the kernel reads one word of a table at its grid coordinate: windows 0, 2, 3, 4
  take sample `perm t`, window 1 takes the memory slab of the label `cls (perm t)`.

  Proved here, for any float instance: table 0 holds a permutation of 0 … 63 as words; table 1 at `t` is the label
  at position `perm t`; under the precondition every label is below 10; hence every block the pipeline fetches or
  flushes lies inside its array.
-/
import proofs.«404096_j45681272160457_2_alg».proof.Proof.Gen.Kernel.Frame
import proofs.«404096_j45681272160457_2_alg».proof.Proof.Gen.Pre_finite_inputs
import Idealize.ShloMosaic.Lib.SortFacts
import Idealize.ShloMosaic.Lib.StableHlo.Predicate
import Idealize.ShloMosaic.Lib.ReduceAll
import Idealize.ShloMosaic.Lib.ValueIdx

set_option maxRecDepth 16384

noncomputable section

namespace Cert.Kernel.Tables

open Cert.Kernel Cert.Kernel.Gen
open Idealize.ShloMosaic Idealize.ShloMosaic.TcCoe Idealize.SL.Sem

variable {F : FTy → Type} [FloatOps F] (m : (ℓ : Loc nD τ sig) → Buf (Elt F) ℓ)

/-- The precondition, read at any float instance. -/
def PreAt : Prop := ∀ c : Dev nD,
  Cert.Pre_finite_inputs.fn (F := F) (m ((c.tc : Thread nD τ).loc main_arg0)) (m ((c.tc : Thread nD τ).loc main_arg1))
    (m ((c.tc : Thread nD τ).loc main_arg2)) = (fun _ => 1#1)

/-- The class labels as launched (the one device's). -/
abbrev clsArr : S64.Idx → BitVec 32 := m (((0 : Dev nD).tc : Thread nD τ).loc main_arg1)

/-- The two prefetched tables as words. -/
abbrev permTbl : S64.Idx → BitVec 32 := tbl m 0
abbrev sclsTbl : S64.Idx → BitVec 32 := tbl m 1

/-! ## The class labels are in range

The precondition ends in the conjunction of three `all`s; the third says that every class label is at least 0
and below 10 as a signed word, hence below 10 as a natural number. -/

local instance : Subsingleton Cert.Pre_finite_inputs.S_.Idx := ⟨fun a b => funext fun d => d.elim0⟩

/-- A word that is at least 0 and below 10, both signed, is below 10 unsigned. -/
theorem toNat_lt_ten (w : BitVec 32) (h0 : IntOp.cmpi .sge w 0#32 = 1#1) (h10 : IntOp.cmpi .slt w 10#32 = 1#1) :
    w.toNat < 10 := by
  have h32 := w.isLt
  have hpos : w.toNat < 2 ^ 31 := by
    unfold IntOp.cmpi at h0
    rw [StableHlo.Predicate.ofBool_eq_one_iff] at h0
    simp only [BitVec.sle, decide_eq_true_eq, BitVec.toInt_eq_toNat_cond] at h0
    split at h0 <;> split at h0 <;> simp at * <;> omega
  have := (StableHlo.Predicate.slt_iff_toNat hpos (by decide)).mp h10
  simpa using this

theorem cls_lt (h : PreAt m) (n : Fin 64) : (clsArr m (Shape.Idx.ofFin n)).toNat < 10 := by
  have e := congrFun (h 0) ValueIdx.ix0
  unfold Cert.Pre_finite_inputs.fn at e
  dsimp only at e
  obtain ⟨_, e14⟩ := IntOp.andi_eq_one.mp e
  have e13 := Host.reduce_andi_all _ _ _ _ _ e14 (Shape.Idx.ofFin n)
  obtain ⟨h0, h10⟩ := IntOp.andi_eq_one.mp e13
  exact toNat_lt_ten _ h0 h10

/-! ## The contents of the two tables

Table 0 is the second component of the stable sort of the pairs (label, position) by label: the sorting
permutation written as words. Table 1 is the labels read through table 0, after the wrap of negative positions
that stands in front of the read. -/

open Idealize.ShloMosaic.StableHlo in
theorem perm_contents :
    permTbl m = (Host.sort2 S64 0 comparator_i32_i32_d0 (clsArr m) (iotaInDim S64 32 0)).2 := by
  unfold permTbl Gen.tbl
  show (V m 0 main_v2 : S64.Idx → BitVec 32) = _
  dsimp only [Gen.V, Gen.V0]
  simp only [Gen.hostOps0, Gen.hostOps0_1, Gen.hostOps0_2, List.flatten_cons, List.flatten_nil, List.append_nil,
    List.cons_append, List.nil_append]
  after_results
  (simp only [TRef.ofBuf, TRef.toBuf, cast_eq]) <;> rfl

/-- The start positions of the read: table 0 with its negative words wrapped by the length. -/
def wrapped : S64.Idx → BitVec 32 :=
  select (cmpi .slt (permTbl m) (broadcastInDim S64 ![] bcast_S_S64 (constantI S_ 32 0#32)))
    (addi (permTbl m) (broadcastInDim S64 ![] bcast_S_S64 (constantI S_ 32 64#32))) (permTbl m)

open Idealize.ShloMosaic.StableHlo in
theorem scls_contents :
    sclsTbl m = Host.gather gather_S64_S64x1_S64_n_0_n_n_0_1_1 (clsArr m)
      (broadcastInDim S64x1 ![0] bcast_S64_S64x1_0 (wrapped m)) := by
  unfold wrapped
  rw [perm_contents]
  unfold sclsTbl Gen.tbl
  show (V m 0 main_v9 : S64.Idx → BitVec 32) = _
  dsimp only [Gen.V, Gen.V0]
  simp only [Gen.hostOps0, Gen.hostOps0_1, Gen.hostOps0_2, List.flatten_cons, List.flatten_nil, List.append_nil,
    List.cons_append, List.nil_append]
  after_results
  (simp only [TRef.ofBuf, TRef.toBuf, cast_eq]) <;> rfl

/-! ## The sorting permutation -/

/-- On a vector, the carried operand of a two-operand sort along its one axis is read through ONE self-map of the
    positions: the stable sorting permutation of the pairs. -/
theorem sort2_rank1_snd {n : Nat} {α β : Type} (cmp : α × β → α × β → BitVec 1)
    (x : (⟨1, ![n]⟩ : Shape).Idx → α) (y : (⟨1, ![n]⟩ : Shape).Idx → β) (j : (⟨1, ![n]⟩ : Shape).Idx) :
    (Host.sort2 ⟨1, ![n]⟩ 0 cmp x y).2 j
      = y (Shape.Idx.ofFin (sortedFrom (fun k k' => cmp (x (Shape.Idx.ofFin k), y (Shape.Idx.ofFin k))
          (x (Shape.Idx.ofFin k'), y (Shape.Idx.ofFin k')) == 1#1) (j 0))) := by
  unfold Host.sort2
  simp

/-- Position `k` sorts before position `k'`: its label is the smaller one, signed. -/
def before (k k' : Fin 64) : Bool :=
  comparator_i32_i32_d0 (clsArr m (Shape.Idx.ofFin k), iotaInDim S64 32 0 (Shape.Idx.ofFin k))
    (clsArr m (Shape.Idx.ofFin k'), iotaInDim S64 32 0 (Shape.Idx.ofFin k')) == 1#1

/-- The sorting permutation: the position whose sample lands at `t`. -/
def sigma : Fin 64 → Fin 64 := sortedFrom (before m)

theorem sigma_injective : Function.Injective (sigma m) := sortedFrom_injective _
theorem sigma_surjective : Function.Surjective (sigma m) := sortedFrom_surjective _

/-- Table 0 at `t` is the word of `sigma t`. -/
theorem perm_apply (t : Fin 64) : permTbl m (Shape.Idx.ofFin t) = BitVec.ofNat 32 (sigma m t).val := by
  rw [perm_contents, sort2_rank1_snd, Shape.Idx.ofFin_zero, StableHlo.Predicate.iota_apply]
  unfold sigma before
  rfl

theorem perm_toNat (t : Fin 64) : (permTbl m (Shape.Idx.ofFin t)).toNat = (sigma m t).val := by
  rw [perm_apply, BitVec.toNat_ofNat]
  exact Nat.mod_eq_of_lt (lt_trans (sigma m t).isLt (by decide))

theorem perm_lt (t : Fin 64) : (permTbl m (Shape.Idx.ofFin t)).toNat < 64 := by
  rw [perm_toNat]; exact (sigma m t).isLt

theorem perm_injective : Function.Injective fun t : Fin 64 => (permTbl m (Shape.Idx.ofFin t)).toNat := by
  intro t t' e
  simp only [perm_toNat] at e
  exact sigma_injective m (Fin.ext e)

theorem perm_surjective (n : Fin 64) : ∃ t : Fin 64, (permTbl m (Shape.Idx.ofFin t)).toNat = n.val := by
  obtain ⟨t, ht⟩ := sigma_surjective m n
  exact ⟨t, by rw [perm_toNat, ht]⟩

/-! ## Table 1: the labels in sorted order

A word of table 0 is below 64, so it is not negative as a signed word and the wrap leaves it alone; the read
then takes the label at that position: neither its clamp nor its signed reading of the position changes it. -/

/-- A word of table 0 is not negative, so the wrap leaves it alone. -/
theorem wrapped_apply (t : Fin 64) : wrapped m (Shape.Idx.ofFin t) = permTbl m (Shape.Idx.ofFin t) := by
  have hlt := perm_lt m t
  have hc : cmpi .slt (permTbl m) (broadcastInDim S64 ![] bcast_S_S64 (constantI S_ 32 0#32)) (Shape.Idx.ofFin t)
      = 0#1 := by
    apply ValueIdx.eq_zero_of_ne_one
    intro h1
    have h2 := (StableHlo.Predicate.slt_iff_toNat (a := permTbl m (Shape.Idx.ofFin t)) (b := 0#32) (by omega)
      (by decide)).mp h1
    simp at h2
  unfold wrapped
  rw [ValueIdx.select_apply, hc, ValueIdx.select_zero]

theorem sortedCls_eq (t : Fin 64) :
    sclsTbl m (Shape.Idx.ofFin t)
      = clsArr m (Shape.Idx.ofFin ⟨(permTbl m (Shape.Idx.ofFin t)).toNat, perm_lt m t⟩) := by
  have hlt := perm_lt m t
  have e : broadcastInDim S64x1 ![0] bcast_S64_S64x1_0 (wrapped m) (StableHlo.Predicate.ixP t)
      = permTbl m (Shape.Idx.ofFin t) :=
    (StableHlo.Predicate.bcast_col1 bcast_S64_S64x1_0 (wrapped m) t).trans (wrapped_apply m t)
  have key : min (broadcastInDim S64x1 ![0] bcast_S64_S64x1_0 (wrapped m) (StableHlo.Predicate.ixP t)).toInt.toNat (64 - 1)
      = (permTbl m (Shape.Idx.ofFin t)).toNat := by
    rw [e, StableHlo.Predicate.toInt_eq_toNat_of_lt (by omega), Int.toNat_natCast]
    omega
  have g := StableHlo.Predicate.gather_take gather_S64_S64x1_S64_n_0_n_n_0_1_1 rfl rfl rfl rfl (clsArr m)
    (broadcastInDim S64x1 ![0] bcast_S64_S64x1_0 (wrapped m)) t (by decide)
  rw [scls_contents]
  refine g.trans ?_
  refine congrArg (fun k : Fin 64 => clsArr m (Shape.Idx.ofFin k)) (Fin.ext ?_)
  exact key
/-- The sorted label at `t` is in range. -/
theorem scls_lt (h : PreAt m) (t : Fin 64) : (sclsTbl m (Shape.Idx.ofFin t)).toNat < 10 := by
  rw [sortedCls_eq]; exact cls_lt m h _

/-! ## The index maps at the tables' words

Every index map reads one word of a table at the grid coordinate and puts it on one axis of its block index. -/

/-- The word an index map loads from table 0 at the offset `off`, when that offset is position `k`. -/
theorem at0_eq (pf : pre0.Contents (Elt F)) (off : Fin 1 → Nat) (inb : ∀ a, off a + S1.size a ≤ S64.size a)
    (k : Fin 64) (hk : off 0 = k.val) :
    pf.at 0 (Rect.unit (s := S64) off S1.size inb) numel1_S1 = (pf 0 : S64.Idx → BitVec 32) (Shape.Idx.ofFin k) := by
  refine congrArg (pf 0 : S64.Idx → BitVec 32) ?_
  funext a
  change Fin 1 at a
  obtain rfl : a = 0 := Subsingleton.elim _ _
  apply Fin.ext
  show off 0 + 1 * 0 = k.val
  omega

/-- The same for table 1. -/
theorem at1_eq (pf : pre0.Contents (Elt F)) (off : Fin 1 → Nat) (inb : ∀ a, off a + S1.size a ≤ S64.size a)
    (k : Fin 64) (hk : off 0 = k.val) :
    pf.at 1 (Rect.unit (s := S64) off S1.size inb) numel1_S1 = (pf 1 : S64.Idx → BitVec 32) (Shape.Idx.ofFin k) := by
  refine congrArg (pf 1 : S64.Idx → BitVec 32) ?_
  funext a
  change Fin 1 at a
  obtain rfl : a = 0 := Subsingleton.elim _ _
  apply Fin.ext
  show off 0 + 1 * 0 = k.val
  omega

/-- The offset the index maps load at is the grid coordinate. -/
theorem off_eq (i : grid0.Coords) : k0_off1 i 0 = (i 0).val := congrFun (k0_off1_eq i) 0

theorem transform_0_eq (pf : pre0.Contents (Elt F)) (i : grid0.Coords) :
    cc0_transform_0 k0_off1_inb numel1_S1 pf i = ![((pf 0 : S64.Idx → BitVec 32) (Shape.Idx.ofFin (i 0))).toNat, 0, 0] :=
  congrArg (fun w : BitVec 32 => (![w.toNat, 0, 0] : Fin 3 → Nat)) (at0_eq pf (k0_off1 i) (k0_off1_inb i) (i 0) (off_eq i))

theorem transform_1_eq (pf : pre0.Contents (Elt F)) (i : grid0.Coords) :
    cc0_transform_1 k0_off1_inb numel1_S1 pf i = ![0, ((pf 1 : S64.Idx → BitVec 32) (Shape.Idx.ofFin (i 0))).toNat, 0, 0] :=
  congrArg (fun w : BitVec 32 => (![0, w.toNat, 0, 0] : Fin 4 → Nat)) (at1_eq pf (k0_off1 i) (k0_off1_inb i) (i 0) (off_eq i))

theorem transform_2_eq (pf : pre0.Contents (Elt F)) (i : grid0.Coords) :
    cc0_transform_2 k0_off1_inb numel1_S1 pf i = ![((pf 0 : S64.Idx → BitVec 32) (Shape.Idx.ofFin (i 0))).toNat, 0, 0] :=
  congrArg (fun w : BitVec 32 => (![w.toNat, 0, 0] : Fin 3 → Nat)) (at0_eq pf (k0_off1 i) (k0_off1_inb i) (i 0) (off_eq i))

theorem transform_3_eq (pf : pre0.Contents (Elt F)) (i : grid0.Coords) :
    cc0_transform_3 k0_off1_inb numel1_S1 pf i = ![((pf 0 : S64.Idx → BitVec 32) (Shape.Idx.ofFin (i 0))).toNat, 0, 0] :=
  congrArg (fun w : BitVec 32 => (![w.toNat, 0, 0] : Fin 3 → Nat)) (at0_eq pf (k0_off1 i) (k0_off1_inb i) (i 0) (off_eq i))

theorem transform_4_eq (pf : pre0.Contents (Elt F)) (i : grid0.Coords) :
    cc0_transform_4 k0_off1_inb numel1_S1 pf i = ![((pf 0 : S64.Idx → BitVec 32) (Shape.Idx.ofFin (i 0))).toNat, 0, 0] :=
  congrArg (fun w : BitVec 32 => (![w.toNat, 0, 0] : Fin 3 → Nat)) (at0_eq pf (k0_off1 i) (k0_off1_inb i) (i 0) (off_eq i))

/-! ## Every block is inside its array -/

/-- A block of one slice on the first axis, at a slice index in range. -/
theorem inb_first (v n d1 d2 : Nat) (hv : v < n) :
    ∀ a : Fin 3, ((![v, 0, 0] : Fin 3 → Nat) a + 1) * (![1, d1, d2] : Fin 3 → Nat) a ≤ (![n, d1, d2] : Fin 3 → Nat) a
  | ⟨0, _⟩ => by show (v + 1) * 1 ≤ n; omega
  | ⟨1, _⟩ => by show (0 + 1) * d1 ≤ d1; omega
  | ⟨2, _⟩ => by show (0 + 1) * d2 ≤ d2; omega

/-- A block of one slice on the second axis, at a slice index in range. -/
theorem inb_second (v n d2 d3 : Nat) (hv : v < n) :
    ∀ a : Fin 4, ((![0, v, 0, 0] : Fin 4 → Nat) a + 1) * (![1, 1, d2, d3] : Fin 4 → Nat) a
      ≤ (![1, n, d2, d3] : Fin 4 → Nat) a
  | ⟨0, _⟩ => by show (0 + 1) * 1 ≤ 1; omega
  | ⟨1, _⟩ => by show (v + 1) * 1 ≤ n; omega
  | ⟨2, _⟩ => by show (0 + 1) * d2 ≤ d2; omega
  | ⟨3, _⟩ => by show (0 + 1) * d3 ≤ d3; omega

theorem ok_of_pre (h : PreAt m) : Ok m := by
  refine ⟨fun i => ⟨fun a => ?_, Or.inl rfl⟩, fun i => ⟨fun a => ?_, Or.inl rfl⟩, fun i => ⟨fun a => ?_, Or.inl rfl⟩,
    fun i => ⟨fun a => ?_, Or.inl rfl⟩, fun i => ⟨fun a => ?_, Or.inl rfl⟩⟩
  · rw [transform_0_eq]; exact inb_first _ 64 512 256 (perm_lt m (i 0)) a
  · rw [transform_1_eq]; exact inb_second _ 10 512 2000 (scls_lt m h (i 0)) a
  · rw [transform_2_eq]; exact inb_first _ 64 512 256 (perm_lt m (i 0)) a
  · rw [transform_3_eq]; exact inb_first _ 64 256 2000 (perm_lt m (i 0)) a
  · rw [transform_4_eq]; exact inb_first _ 64 256 2000 (perm_lt m (i 0)) a

end Cert.Kernel.Tables

end
-- ==== Proof.Pieces.lean ====
/-
  What one grid point leaves in the three output blocks, as pure functions of the two input blocks it found.

  The body loads the sample's block and the class's memory slab, and stores three values, each over the whole
  of its output block: the readout, the weights, and the logarithms of the weights. (It also loads each output
  block before storing into it and uses none of those loads.) So each output block after the point is exactly
  the stored value — for any float instance.
-/
import proofs.«404096_j45681272160457_2_alg».proof.Proof.Gen.KernelIdeal.Frame
import Idealize.ShloMosaic.Lib.Pipeline.Value

set_option maxRecDepth 16384

noncomputable section

namespace Cert.KernelIdeal.Pieces

open Cert.KernelIdeal Cert.KernelIdeal.Gen
open Idealize.ShloMosaic Idealize.ShloMosaic.TcCoe Idealize.ShloMosaic.Tactic Idealize.SL.Sem

variable {F : FTy → Type} [FloatOps F]

/-- Every store and load of the body starts at the block's origin. -/
theorem hz3 : (![0, 0, 0] : Fin 3 → Nat) = fun _ => 0 := by funext a; fin_cases a <;> rfl
theorem hz4 : (![0, 0, 0, 0] : Fin 4 → Nat) = fun _ => 0 := by funext a; fin_cases a <;> rfl

/-- The readout block after the point. -/
theorem readout_piece (c : Dev nD) (i : grid0.Coords) (arg3 : Memref sig .tc .vmem S1x512x256 .f32) (harg3 : arg3.IsWhole) (arg4 : Memref sig .tc .vmem S1x1x512x2000 .f32) (harg4 : arg4.IsWhole) (arg5 : Memref sig .tc .vmem S1x512x256 .f32) (harg5 : arg5.IsWhole) (arg6 : Memref sig .tc .vmem S1x256x2000 .f32) (harg6 : arg6.IsWhole) (arg7 : Memref sig .tc .vmem S1x256x2000 .f32) (harg7 : arg7.IsWhole)
    (x0 : Vec F S1x512x256 .f32) (x1 : Vec F S1x1x512x2000 .f32) (xt0 : TbBuf0 (F := F) c tbM0_0) (xt1 : TbBuf0 (F := F) c tbM0_1) :
    out0_A_2 c i arg3 harg3 arg4 harg4 arg5 harg5 arg6 harg6 arg7 harg7 x0 x1 xt0 xt1 = k0_pay8 x0 x1 := by
  unfold out0_A_2
  rw [View.read_writes_eq_canon _ _ _ (cover0_A_2 c i arg3 harg3 arg4 harg4 arg5 harg5 arg6 harg6 arg7 harg7 x0 x1 xt0 xt1)]
  unfold kernelRun0_A
  dsimp only
  sl_unfold_words
  rw [View.canon_unit_zero hz3]
  simp only [View.readAt_eq_ld, harg3.read_unread, harg4.read_unread, View.ld_unit_zero (S := S1x512x256) hz3,
    View.ld_unit_zero (S := S1x1x512x2000) hz4]

/-- The weights' block after the point. -/
theorem weight_piece (c : Dev nD) (i : grid0.Coords) (arg3 : Memref sig .tc .vmem S1x512x256 .f32) (harg3 : arg3.IsWhole) (arg4 : Memref sig .tc .vmem S1x1x512x2000 .f32) (harg4 : arg4.IsWhole) (arg5 : Memref sig .tc .vmem S1x512x256 .f32) (harg5 : arg5.IsWhole) (arg6 : Memref sig .tc .vmem S1x256x2000 .f32) (harg6 : arg6.IsWhole) (arg7 : Memref sig .tc .vmem S1x256x2000 .f32) (harg7 : arg7.IsWhole)
    (x0 : Vec F S1x512x256 .f32) (x1 : Vec F S1x1x512x2000 .f32) (xt0 : TbBuf0 (F := F) c tbM0_0) (xt1 : TbBuf0 (F := F) c tbM0_1) :
    out0_A_3 c i arg3 harg3 arg4 harg4 arg5 harg5 arg6 harg6 arg7 harg7 x0 x1 xt0 xt1 = k0_pay9 x0 x1 := by
  unfold out0_A_3
  rw [View.read_writes_eq_canon _ _ _ (cover0_A_3 c i arg3 harg3 arg4 harg4 arg5 harg5 arg6 harg6 arg7 harg7 x0 x1 xt0 xt1)]
  unfold kernelRun0_A
  dsimp only
  sl_unfold_words
  rw [View.canon_unit_zero hz3]
  simp only [View.readAt_eq_ld, harg3.read_unread, harg4.read_unread, View.ld_unit_zero (S := S1x512x256) hz3,
    View.ld_unit_zero (S := S1x1x512x2000) hz4]

/-- The block of the weights' logarithms after the point. -/
theorem logWeight_piece (c : Dev nD) (i : grid0.Coords) (arg3 : Memref sig .tc .vmem S1x512x256 .f32) (harg3 : arg3.IsWhole) (arg4 : Memref sig .tc .vmem S1x1x512x2000 .f32) (harg4 : arg4.IsWhole) (arg5 : Memref sig .tc .vmem S1x512x256 .f32) (harg5 : arg5.IsWhole) (arg6 : Memref sig .tc .vmem S1x256x2000 .f32) (harg6 : arg6.IsWhole) (arg7 : Memref sig .tc .vmem S1x256x2000 .f32) (harg7 : arg7.IsWhole)
    (x0 : Vec F S1x512x256 .f32) (x1 : Vec F S1x1x512x2000 .f32) (xt0 : TbBuf0 (F := F) c tbM0_0) (xt1 : TbBuf0 (F := F) c tbM0_1) :
    out0_A_4 c i arg3 harg3 arg4 harg4 arg5 harg5 arg6 harg6 arg7 harg7 x0 x1 xt0 xt1 = k0_pay1 (k0_pay7 x0 x1) := by
  unfold out0_A_4
  rw [View.read_writes_eq_canon _ _ _ (cover0_A_4 c i arg3 harg3 arg4 harg4 arg5 harg5 arg6 harg6 arg7 harg7 x0 x1 xt0 xt1)]
  unfold kernelRun0_A
  dsimp only
  sl_unfold_words
  rw [View.canon_unit_zero hz3]
  simp only [View.readAt_eq_ld, harg3.read_unread, harg4.read_unread, View.ld_unit_zero (S := S1x512x256) hz3,
    View.ld_unit_zero (S := S1x1x512x2000) hz4]

end Cert.KernelIdeal.Pieces

end
-- ==== Proof.Spec.lean ====
/-
  The mathematics both programs compute, for ONE sample.

  A sample is a matrix `zs : 512 × 256` (channels by pixels) and a memory slab `ms : 512 × 2000`
  (channels by slots). For pixel `p` and slot `j` the similarity is

      sim p j = 2 · (∑_c zs c p · ms c j) − (∑_c zs c p²) − (∑_c ms c j²),

  i.e. minus the squared distance between column `p` of `zs` and column `j` of `ms`. Along the slots it is
  shifted by its row maximum, exponentiated and normalised: `weight p j = exp(sim p j − max_j sim p j) / denom p`
  with `denom p = ∑_j exp(sim p j − max_j sim p j)`; the logarithm of the weight is taken as
  `(sim p j − max_j sim p j) − log (denom p)`; and the readout is `readout c p = ∑_j ms c j · weight p j`.

  Everything is over the extended reals, with the order of every product and difference exactly as both
  programs write it, so that each side meets these terms with no algebra at all. The row maximum is the fold of
  `max` from the word of `−∞`, the form in which both a lane reduction and a host reduction read at an index.

  The whole arrays: sample `n` of the result reads sample `n` of `z` (its 16 × 16 pixels flattened) and the
  slab of `memory` that `cls n` names.
-/
import Idealize.ShloMosaic.PureOps.Ideal
import Idealize.ShloMosaic.PureOps.Ideal.Laws
import Idealize.ShloMosaic.Lib.ValueIdx

noncomputable section

open scoped BigOperators

namespace Cert.ClassMemory

open Idealize.ShloMosaic Idealize.ShloMosaic.ValueIdx

/-- The word of the factor 2 in front of the inner products. -/
abbrev two : EReal := Ideal.ofBits .f32 0x40000000#32
/-- The word of `−∞`, from which both programs start their row maximum. -/
abbrev negInf : EReal := Ideal.ofBits .f32 0xFF800000#32

variable (zs : Fin 512 → Fin 256 → EReal) (ms : Fin 512 → Fin 2000 → EReal)

/-- Minus the squared distance of pixel `p`'s column of `zs` and slot `j`'s column of `ms`, expanded. -/
def sim (p : Fin 256) (j : Fin 2000) : EReal :=
  two * (∑ c : Fin 512, zs c p * ms c j) - (∑ c : Fin 512, zs c p * zs c p) - (∑ c : Fin 512, ms c j * ms c j)

/-- The largest similarity of pixel `p` over the slots. -/
def rowMax (p : Fin 256) : EReal := (Finset.univ : Finset (Fin 2000)).fold max negInf (fun j => sim zs ms p j)

/-- The similarity less its row maximum. -/
def shifted (p : Fin 256) (j : Fin 2000) : EReal := sim zs ms p j - rowMax zs ms p

/-- Its exponential. -/
def expo (p : Fin 256) (j : Fin 2000) : EReal := Ideal.exp (shifted zs ms p j)

/-- The normaliser of pixel `p`. -/
def denom (p : Fin 256) : EReal := ∑ j : Fin 2000, expo zs ms p j

/-- The softmax weight of slot `j` for pixel `p`. -/
def weight (p : Fin 256) (j : Fin 2000) : EReal := Ideal.div (expo zs ms p j) (denom zs ms p)

/-- The logarithm of that weight, as both programs take it. -/
def logWeight (p : Fin 256) (j : Fin 2000) : EReal := shifted zs ms p j - Ideal.log (denom zs ms p)

/-- The memory read out with the weights: channel `c` at pixel `p`. -/
def readout (c : Fin 512) (p : Fin 256) : EReal := ∑ j : Fin 2000, ms c j * weight zs ms p j

/-! ## The samples of the whole arrays -/

/-- Pixel `p` of a 16 × 16 image is row `p / 16`, column `p % 16`. -/
def pixRow (p : Fin 256) : Fin 16 := ⟨p.val / 16, by have := p.isLt; omega⟩
def pixCol (p : Fin 256) : Fin 16 := ⟨p.val % 16, by omega⟩
/-- and the other way round. -/
def pixOf (h w : Fin 16) : Fin 256 := ⟨h.val * 16 + w.val, by have := h.isLt; have := w.isLt; omega⟩

theorem pixRow_pixOf (h w : Fin 16) : pixRow (pixOf h w) = h := Fin.ext (by simp only [pixRow, pixOf]; have := w.isLt; omega)
theorem pixCol_pixOf (h w : Fin 16) : pixCol (pixOf h w) = w := Fin.ext (by simp only [pixCol, pixOf]; have := w.isLt; omega)
theorem pixOf_row_col (p : Fin 256) : pixOf (pixRow p) (pixCol p) = p := Fin.ext (by simp only [pixRow, pixCol, pixOf]; omega)

/-- Sample `n` of `z`, its pixels flattened. -/
def sampleOf (z : (⟨4, ![64, 512, 16, 16]⟩ : Shape).Idx → EReal) (n : Fin 64) : Fin 512 → Fin 256 → EReal :=
  fun c p => z (ix4 n c (pixRow p) (pixCol p))

/-- The class a word names, read modulo 10 so that it is total; on a word in range it is the word. -/
def classOf (w : BitVec 32) : Fin 10 := ⟨w.toNat % 10, Nat.mod_lt _ (by decide)⟩

theorem classOf_val (w : BitVec 32) (h : w.toNat < 10) : (classOf w).val = w.toNat := Nat.mod_eq_of_lt h

/-- The slab of `memory` for class `k`. -/
def slabOf (mem : (⟨4, ![1, 512, 2000, 10]⟩ : Shape).Idx → EReal) (k : Fin 10) : Fin 512 → Fin 2000 → EReal :=
  fun c j => mem (ix4 (0 : Fin 1) c j k)

variable (z : (⟨4, ![64, 512, 16, 16]⟩ : Shape).Idx → EReal) (cls : (⟨1, ![64]⟩ : Shape).Idx → BitVec 32)
  (mem : (⟨4, ![1, 512, 2000, 10]⟩ : Shape).Idx → EReal)

/-- The slab sample `n` addresses. -/
def slabAt (n : Fin 64) : Fin 512 → Fin 2000 → EReal := slabOf mem (classOf (cls (ix1 n)))

/-- The three results as whole arrays of the three arguments: the readout with its pixels as a 16 × 16 image,
    the weights, and their logarithms. -/
def readoutArr : (⟨4, ![64, 512, 16, 16]⟩ : Shape).Idx → EReal :=
  fun i => readout (sampleOf z (i 0)) (slabAt cls mem (i 0)) (i 1) (pixOf (i 2) (i 3))
def readoutFlat : (⟨3, ![64, 512, 256]⟩ : Shape).Idx → EReal :=
  fun i => readout (sampleOf z (i 0)) (slabAt cls mem (i 0)) (i 1) (i 2)
def weightArr : (⟨3, ![64, 256, 2000]⟩ : Shape).Idx → EReal :=
  fun i => weight (sampleOf z (i 0)) (slabAt cls mem (i 0)) (i 1) (i 2)
def logWeightArr : (⟨3, ![64, 256, 2000]⟩ : Shape).Idx → EReal :=
  fun i => logWeight (sampleOf z (i 0)) (slabAt cls mem (i 0)) (i 1) (i 2)

/-- A rank-1 index written the two ways the library writes it. -/
theorem ix1_eq_ofFin {n : Nat} (k : Fin n) : ix1 k = (fun a => ⟨k.val, by have : a = 0 := Subsingleton.elim _ _; subst this; exact k.isLt⟩ : (⟨1, ![n]⟩ : Shape).Idx) := by
  funext d; match d with | ⟨0, _⟩ => rfl

/-- The row maximum dominates the start of its fold, so taking the maximum with that start again changes nothing. -/
theorem max_negInf_rowMax (p : Fin 256) : max negInf (rowMax zs ms p) = rowMax zs ms p :=
  max_eq_right ((Finset.le_fold_max negInf).mpr (Or.inl le_rfl))

end Cert.ClassMemory

end
-- ==== Proof.Payload.lean ====
import proofs.«404096_j45681272160457_2_alg».proof.Proof.Gen.KernelIdeal.Skeleton
import proofs.«404096_j45681272160457_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Payload

open Cert.KernelIdeal Cert.KernelIdeal.Gen Cert.ClassMemory
open Idealize.ShloMosaic Idealize.ShloMosaic.ValueIdx

/-! ## Layout operations of small shapes read at coordinates -/

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reduced index `t` of a sum over the rows, with row `k` put back, is `(k, t)`. -/
theorem lift_rows {m n : ℕ} (h : (⟨2, ![m, n]⟩ : Shape).Reduces [0] (⟨1, ![n]⟩ : Shape)) (t : Fin n)
    (k : Fin ((⟨2, ![m, n]⟩ : Shape).size 0)) : h.lift (ix1 t) k = ix2 (⟨k.val, k.isLt⟩ : Fin m) t := by
  funext c; apply Fin.ext
  fin_cases c <;> rfl

/-- The reduced index `t` of a sum along the rows, with column `k` put back, is `(t, k)`. -/
theorem lift_cols {m n : ℕ} (h : (⟨2, ![m, n]⟩ : Shape).Reduces [1] (⟨1, ![m]⟩ : Shape)) (t : Fin m)
    (k : Fin ((⟨2, ![m, n]⟩ : Shape).size 1)) : h.lift (ix1 t) k = ix2 t (⟨k.val, k.isLt⟩ : Fin n) := by
  funext c; apply Fin.ext
  fin_cases c <;> rfl

end Layout

variable (x0 : Vec Ideal S1x512x256 .f32) (x1 : Vec Ideal S1x1x512x2000 .f32)

/-- The sample a staged block of `z` holds, and the slab a staged block of the memory holds. -/
def zsOf : Fin 512 → Fin 256 → EReal := fun c p => x0 (ix3 (0 : Fin 1) c p)
def msOf : Fin 512 → Fin 2000 → EReal := fun c j => x1 (ix4 (0 : Fin 1) (0 : Fin 1) c j)

/-! ## The two loaded blocks as matrices -/

/-- The memory block viewed `[512, 2000]` is the slab. -/
theorem slab_at (c : Fin 512) (j : Fin 2000) : k0_pay2 (F := Ideal) x1 (ix2 c j) = msOf x1 c j := by
  unfold k0_pay2 msOf
  exact shapeCast_apply x1 shapeCasts_S1x1x512x2000_S512x2000 (ix2 c j) (ix4 (0 : Fin 1) (0 : Fin 1) c j) (by
    rw [Shape.rowMajor_val_four, Shape.rowMajor_val_two]
    show ((0 * 1 + 0) * 512 + c.val) * 2000 + j.val = c.val * 2000 + j.val
    omega)

/-- The sample block viewed `[512, 256]` is the sample. -/
theorem block_at (c : Fin 512) (p : Fin 256) :
    shapeCast S512x256 x0 shapeCasts_S1x512x256_S512x256 (ix2 c p) = zsOf x0 c p :=
  shapeCast_1ab_ab_apply x0 shapeCasts_S1x512x256_S512x256 c p

/-! ## The two matrix products -/

theorem lhs_sim_0 (i : S256x2000.Idx) (q : dot_S512x256_S512x2000_S256x2000_0_0_1_1_n_n.contr.Idx) :
    (dot_S512x256_S512x2000_S256x2000_0_0_1_1_n_n.lhsIdx i q 0).val = (q ⟨0, by decide⟩).val :=
  dot_S512x256_S512x2000_S256x2000_0_0_1_1_n_n.lhsIdx_val_of_single rfl i q
theorem lhs_sim_1 (i : S256x2000.Idx) (q : dot_S512x256_S512x2000_S256x2000_0_0_1_1_n_n.contr.Idx) :
    (dot_S512x256_S512x2000_S256x2000_0_0_1_1_n_n.lhsIdx i q 1).val = (i 0).val := by
  unfold DotDims.lhsIdx
  rw [dif_neg (show ¬(1 : Fin S512x256.rank) ∈ dot_S512x256_S512x2000_S256x2000_0_0_1_1_n_n.lhsBatch by decide), dif_pos (show (1 : Fin S512x256.rank) ∈ dot_S512x256_S512x2000_S256x2000_0_0_1_1_n_n.lhsNonContracting by decide)]
  rfl
theorem rhs_sim_0 (i : S256x2000.Idx) (q : dot_S512x256_S512x2000_S256x2000_0_0_1_1_n_n.contr.Idx) :
    (dot_S512x256_S512x2000_S256x2000_0_0_1_1_n_n.rhsIdx i q 0).val = (q ⟨0, by decide⟩).val :=
  dot_S512x256_S512x2000_S256x2000_0_0_1_1_n_n.rhsIdx_val_of_single rfl i q
theorem rhs_sim_1 (i : S256x2000.Idx) (q : dot_S512x256_S512x2000_S256x2000_0_0_1_1_n_n.contr.Idx) :
    (dot_S512x256_S512x2000_S256x2000_0_0_1_1_n_n.rhsIdx i q 1).val = (i 1).val := by
  unfold DotDims.rhsIdx
  rw [dif_neg (show ¬(1 : Fin S512x2000.rank) ∈ dot_S512x256_S512x2000_S256x2000_0_0_1_1_n_n.rhsBatch by decide), dif_pos (show (1 : Fin S512x2000.rank) ∈ dot_S512x256_S512x2000_S256x2000_0_0_1_1_n_n.rhsNonContracting by decide)]
  rfl

/-- The product contracting the channels of both operands, at pixel `p` and slot `j`: the sum over the channels. -/
theorem matmul_sim_apply (y0 : FVec Ideal S512x256 .f32) (y1 : FVec Ideal S512x2000 .f32) (p : Fin 256) (j : Fin 2000) :
    matmul dot_S512x256_S512x2000_S256x2000_0_0_1_1_n_n (some .fp32) y0 y1 (constant (F := Ideal) S256x2000 .f32 0x00000000#32) (ix2 p j)
      = ∑ c : Fin 512, y0 (ix2 c p) * y1 (ix2 c j) := by
  simp only [matmul]
  rw [Ideal.matmul_constant_zero_apply, ← Equiv.sum_comp (ValueIdx.contrEquiv1 dot_S512x256_S512x2000_S256x2000_0_0_1_1_n_n 512 rfl rfl).symm]
  refine Finset.sum_congr rfl fun k _ => ?_
  have hk := ValueIdx.contrEquiv1_symm_val dot_S512x256_S512x2000_S256x2000_0_0_1_1_n_n 512 rfl rfl k
  have el : dot_S512x256_S512x2000_S256x2000_0_0_1_1_n_n.lhsIdx (ix2 p j) ((ValueIdx.contrEquiv1 dot_S512x256_S512x2000_S256x2000_0_0_1_1_n_n 512 rfl rfl).symm k) = ix2 k p := funext fun a => Fin.ext (by
    match a with
    | ⟨0, _⟩ => exact (lhs_sim_0 _ _).trans hk
    | ⟨1, _⟩ => exact lhs_sim_1 _ _)
  have er : dot_S512x256_S512x2000_S256x2000_0_0_1_1_n_n.rhsIdx (ix2 p j) ((ValueIdx.contrEquiv1 dot_S512x256_S512x2000_S256x2000_0_0_1_1_n_n 512 rfl rfl).symm k) = ix2 k j := funext fun a => Fin.ext (by
    match a with
    | ⟨0, _⟩ => exact (rhs_sim_0 _ _).trans hk
    | ⟨1, _⟩ => exact rhs_sim_1 _ _)
  rw [el, er]

theorem lhs_read_0 (i : S512x256.Idx) (q : dot_S512x2000_S256x2000_S512x256_1_1_0_0_n_n.contr.Idx) :
    (dot_S512x2000_S256x2000_S512x256_1_1_0_0_n_n.lhsIdx i q 0).val = (i 0).val := by
  unfold DotDims.lhsIdx
  rw [dif_neg (show ¬(0 : Fin S512x2000.rank) ∈ dot_S512x2000_S256x2000_S512x256_1_1_0_0_n_n.lhsBatch by decide), dif_pos (show (0 : Fin S512x2000.rank) ∈ dot_S512x2000_S256x2000_S512x256_1_1_0_0_n_n.lhsNonContracting by decide)]
  rfl
theorem lhs_read_1 (i : S512x256.Idx) (q : dot_S512x2000_S256x2000_S512x256_1_1_0_0_n_n.contr.Idx) :
    (dot_S512x2000_S256x2000_S512x256_1_1_0_0_n_n.lhsIdx i q 1).val = (q ⟨0, by decide⟩).val :=
  dot_S512x2000_S256x2000_S512x256_1_1_0_0_n_n.lhsIdx_val_of_single rfl i q
theorem rhs_read_0 (i : S512x256.Idx) (q : dot_S512x2000_S256x2000_S512x256_1_1_0_0_n_n.contr.Idx) :
    (dot_S512x2000_S256x2000_S512x256_1_1_0_0_n_n.rhsIdx i q 0).val = (i 1).val := by
  unfold DotDims.rhsIdx
  rw [dif_neg (show ¬(0 : Fin S256x2000.rank) ∈ dot_S512x2000_S256x2000_S512x256_1_1_0_0_n_n.rhsBatch by decide), dif_pos (show (0 : Fin S256x2000.rank) ∈ dot_S512x2000_S256x2000_S512x256_1_1_0_0_n_n.rhsNonContracting by decide)]
  rfl
theorem rhs_read_1 (i : S512x256.Idx) (q : dot_S512x2000_S256x2000_S512x256_1_1_0_0_n_n.contr.Idx) :
    (dot_S512x2000_S256x2000_S512x256_1_1_0_0_n_n.rhsIdx i q 1).val = (q ⟨0, by decide⟩).val :=
  dot_S512x2000_S256x2000_S512x256_1_1_0_0_n_n.rhsIdx_val_of_single rfl i q

/-- The product contracting the slots of both operands, at channel `c` and pixel `p`: the sum over the slots. -/
theorem matmul_read_apply (y0 : FVec Ideal S512x2000 .f32) (y1 : FVec Ideal S256x2000 .f32) (c : Fin 512) (p : Fin 256) :
    matmul dot_S512x2000_S256x2000_S512x256_1_1_0_0_n_n (some .fp32) y0 y1 (constant (F := Ideal) S512x256 .f32 0x00000000#32) (ix2 c p)
      = ∑ j : Fin 2000, y0 (ix2 c j) * y1 (ix2 p j) := by
  simp only [matmul]
  rw [Ideal.matmul_constant_zero_apply, ← Equiv.sum_comp (ValueIdx.contrEquiv1 dot_S512x2000_S256x2000_S512x256_1_1_0_0_n_n 2000 rfl rfl).symm]
  refine Finset.sum_congr rfl fun k _ => ?_
  have hk := ValueIdx.contrEquiv1_symm_val dot_S512x2000_S256x2000_S512x256_1_1_0_0_n_n 2000 rfl rfl k
  have el : dot_S512x2000_S256x2000_S512x256_1_1_0_0_n_n.lhsIdx (ix2 c p) ((ValueIdx.contrEquiv1 dot_S512x2000_S256x2000_S512x256_1_1_0_0_n_n 2000 rfl rfl).symm k) = ix2 c k := funext fun a => Fin.ext (by
    match a with
    | ⟨0, _⟩ => exact lhs_read_0 _ _
    | ⟨1, _⟩ => exact (lhs_read_1 _ _).trans hk)
  have er : dot_S512x2000_S256x2000_S512x256_1_1_0_0_n_n.rhsIdx (ix2 c p) ((ValueIdx.contrEquiv1 dot_S512x2000_S256x2000_S512x256_1_1_0_0_n_n 2000 rfl rfl).symm k) = ix2 p k := funext fun a => Fin.ext (by
    match a with
    | ⟨0, _⟩ => exact rhs_read_0 _ _
    | ⟨1, _⟩ => exact (rhs_read_1 _ _).trans hk)
  rw [el, er]

/-! ## The lane reductions at an index -/

/-- A sum over the rows of a `[512, 256]` matrix, at column `p`. -/
theorem sumRows_z_apply (y : FVec Ideal S512x256 .f32) (p : Fin 256) :
    multiReduction (F := Ideal) .add [0] S256 y 0x00000000#32 reduces_S512x256_S256 (.inl rfl) rfl (ix1 p)
      = ∑ c : Fin 512, y (ix2 c p) := by
  refine (Ideal.multiReduction_add_single y 0x00000000#32 reduces_S512x256_S256 (.inl rfl) rfl (ix1 p)).trans ?_
  exact Finset.sum_congr rfl fun k _ => congrArg y (lift_rows reduces_S512x256_S256 p k)

/-- A sum over the rows of a `[512, 2000]` matrix, at column `j`. -/
theorem sumRows_m_apply (y : FVec Ideal S512x2000 .f32) (j : Fin 2000) :
    multiReduction (F := Ideal) .add [0] S2000 y 0x00000000#32 reduces_S512x2000_S2000 (.inl rfl) rfl (ix1 j)
      = ∑ c : Fin 512, y (ix2 c j) := by
  refine (Ideal.multiReduction_add_single y 0x00000000#32 reduces_S512x2000_S2000 (.inl rfl) rfl (ix1 j)).trans ?_
  exact Finset.sum_congr rfl fun k _ => congrArg y (lift_rows reduces_S512x2000_S2000 j k)

/-- A sum along the rows of a `[256, 2000]` matrix, at row `p`. -/
theorem sumCols_apply (y : FVec Ideal S256x2000 .f32) (p : Fin 256) :
    multiReduction (F := Ideal) .add [1] S256 y 0x00000000#32 reduces_S256x2000_S256 (.inl rfl) rfl (ix1 p)
      = ∑ j : Fin 2000, y (ix2 p j) := by
  refine (Ideal.multiReduction_add_single y 0x00000000#32 reduces_S256x2000_S256 (.inl rfl) rfl (ix1 p)).trans ?_
  exact Finset.sum_congr rfl fun k _ => congrArg y (lift_cols reduces_S256x2000_S256 p k)

/-- A maximum along the rows of a `[256, 2000]` matrix from the word of `−∞`, at row `p`. -/
theorem maxCols_apply (y : FVec Ideal S256x2000 .f32) (p : Fin 256) :
    multiReduction (F := Ideal) .maximumf [1] S256 y 0xFF800000#32 reduces_S256x2000_S256 (.inl rfl) rfl (ix1 p)
      = (Finset.univ : Finset (Fin 2000)).fold max negInf (fun j => y (ix2 p j)) := by
  refine (Ideal.multiReduction_maximumf_single y 0xFF800000#32 reduces_S256x2000_S256 (.inl rfl) rfl (ix1 p)).trans ?_
  have hf : (y ∘ reduces_S256x2000_S256.lift (ix1 p)) = fun j : Fin 2000 => y (ix2 p j) :=
    funext fun k => congrArg y (lift_cols reduces_S256x2000_S256 p k)
  exact congrArg (fun f => Finset.fold max negInf f (Finset.univ : Finset (Fin 2000))) hf

/-! ## The similarity matrix -/

/-- The staged sample as a `[512, 256]` matrix. -/
def zV : FVec Ideal S512x256 .f32 := shapeCast S512x256 x0 shapeCasts_S1x512x256_S512x256

/-- The inner products of the pixels' columns with the slots' columns. -/
def dotV : FVec Ideal S256x2000 .f32 :=
  matmul dot_S512x256_S512x2000_S256x2000_0_0_1_1_n_n (some .fp32) (zV x0) (k0_pay2 (F := Ideal) x1) (constant (F := Ideal) S256x2000 .f32 0x00000000#32)

/-- The squared norms of the pixels' columns, one per row, spread over the slots. -/
def zsqV : FVec Ideal S256x2000 .f32 :=
  broadcastTo S256x2000 (shapeCast S256x1 (multiReduction (F := Ideal) .add [0] S256 (mulf (zV x0) (zV x0)) 0x00000000#32 reduces_S512x256_S256 (.inl rfl) rfl) shapeCasts_S256_S256x1) broadcasts_S256x1_S256x2000

/-- The squared norms of the slots' columns, one per column, spread over the pixels. -/
def msqV : FVec Ideal S256x2000 .f32 :=
  broadcastTo S256x2000 (shapeCast S1x2000 (multiReduction (F := Ideal) .add [0] S2000 (mulf (k0_pay2 (F := Ideal) x1) (k0_pay2 (F := Ideal) x1)) 0x00000000#32 reduces_S512x2000_S2000 (.inl rfl) rfl) shapeCasts_S2000_S1x2000) broadcasts_S1x2000_S256x2000

/-- Twice the inner products less the two squared norms. -/
def simV : FVec Ideal S256x2000 .f32 :=
  subf (subf (mulf (broadcast S256x2000 (Scalar.ofBits (F := Ideal) .f32 0x40000000#32)) (dotV x0 x1)) (zsqV x0)) (msqV x1)

/-- The row maxima of the similarity matrix, one per row, spread over the slots. -/
def maxV : FVec Ideal S256x2000 .f32 :=
  broadcastTo S256x2000 (shapeCast S256x1 (multiReduction (F := Ideal) .maximumf [1] S256 (simV x0 x1) 0xFF800000#32 reduces_S256x2000_S256 (.inl rfl) rfl) shapeCasts_S256_S256x1) broadcasts_S256x1_S256x2000

theorem zV_at (c : Fin 512) (p : Fin 256) : zV x0 (ix2 c p) = zsOf x0 c p := block_at x0 c p

theorem dotV_at (p : Fin 256) (j : Fin 2000) :
    dotV x0 x1 (ix2 p j) = ∑ c : Fin 512, zsOf x0 c p * msOf x1 c j := by
  unfold dotV
  refine (matmul_sim_apply (zV x0) (k0_pay2 (F := Ideal) x1) p j).trans ?_
  exact Finset.sum_congr rfl fun c _ => congrArg₂ (· * ·) (zV_at x0 c p) (slab_at x1 c j)

theorem zsqV_at (p : Fin 256) (j : Fin 2000) :
    zsqV x0 (ix2 p j) = ∑ c : Fin 512, zsOf x0 c p * zsOf x0 c p := by
  unfold zsqV
  refine (broadcastTo_a1_ab_apply _ broadcasts_S256x1_S256x2000 p j).trans ?_
  refine (shapeCast_a_a1_apply _ shapeCasts_S256_S256x1 p (0 : Fin 1)).trans ?_
  refine (sumRows_z_apply _ p).trans ?_
  exact Finset.sum_congr rfl fun c _ => congrArg₂ (· * ·) (zV_at x0 c p) (zV_at x0 c p)

theorem msqV_at (p : Fin 256) (j : Fin 2000) :
    msqV x1 (ix2 p j) = ∑ c : Fin 512, msOf x1 c j * msOf x1 c j := by
  unfold msqV
  refine (broadcastTo_1b_ab_apply _ broadcasts_S1x2000_S256x2000 p j).trans ?_
  refine (shapeCast_a_1a_apply _ shapeCasts_S2000_S1x2000 (0 : Fin 1) j).trans ?_
  refine (sumRows_m_apply _ j).trans ?_
  exact Finset.sum_congr rfl fun c _ => congrArg₂ (· * ·) (slab_at x1 c j) (slab_at x1 c j)

theorem simV_at (p : Fin 256) (j : Fin 2000) : simV x0 x1 (ix2 p j) = sim (zsOf x0) (msOf x1) p j := by
  unfold simV sim
  show two * dotV x0 x1 (ix2 p j) - zsqV x0 (ix2 p j) - msqV x1 (ix2 p j) = _
  rw [dotV_at, zsqV_at, msqV_at]

theorem maxV_at (p : Fin 256) (j : Fin 2000) : maxV x0 x1 (ix2 p j) = rowMax (zsOf x0) (msOf x1) p := by
  unfold maxV rowMax
  refine (broadcastTo_a1_ab_apply _ broadcasts_S256x1_S256x2000 p j).trans ?_
  refine (shapeCast_a_a1_apply _ shapeCasts_S256_S256x1 p (0 : Fin 1)).trans ?_
  refine (maxCols_apply _ p).trans ?_
  exact congrArg (fun f => Finset.fold max negInf f (Finset.univ : Finset (Fin 2000))) (funext fun k => simV_at x0 x1 p k)

/-! ## The payloads at an index -/

/-- The shifted similarity is the similarity matrix less its spread row maxima. -/
theorem pay3_eq : k0_pay3 (F := Ideal) x0 x1 = subf (simV x0 x1) (maxV x0 x1) := rfl

theorem pay3_at (p : Fin 256) (j : Fin 2000) :
    k0_pay3 (F := Ideal) x0 x1 (ix2 p j) = shifted (zsOf x0) (msOf x1) p j := by
  rw [pay3_eq]
  unfold shifted
  show simV x0 x1 (ix2 p j) - maxV x0 x1 (ix2 p j) = _
  rw [simV_at, maxV_at]

theorem pay4_at (p : Fin 256) (j : Fin 2000) :
    k0_pay4 (F := Ideal) x0 x1 (ix2 p j) = expo (zsOf x0) (msOf x1) p j := by
  unfold expo
  show Ideal.exp (k0_pay3 (F := Ideal) x0 x1 (ix2 p j)) = _
  rw [pay3_at]

theorem pay5_at (p : Fin 256) (u : Fin 1) :
    k0_pay5 (F := Ideal) x0 x1 (ix2 p u) = denom (zsOf x0) (msOf x1) p := by
  unfold k0_pay5 denom
  refine (shapeCast_a_a1_apply _ shapeCasts_S256_S256x1 p u).trans ?_
  refine (sumCols_apply _ p).trans ?_
  exact Finset.sum_congr rfl fun j _ => pay4_at x0 x1 p j

theorem pay6_at (p : Fin 256) (j : Fin 2000) :
    k0_pay6 (F := Ideal) x0 x1 (ix2 p j) = weight (zsOf x0) (msOf x1) p j := by
  unfold weight
  have hb : broadcastTo S256x2000 (k0_pay5 (F := Ideal) x0 x1) broadcasts_S256x1_S256x2000 (ix2 p j) = denom (zsOf x0) (msOf x1) p :=
    (broadcastTo_a1_ab_apply _ broadcasts_S256x1_S256x2000 p j).trans (pay5_at x0 x1 p (0 : Fin 1))
  show Ideal.div (k0_pay4 (F := Ideal) x0 x1 (ix2 p j)) (broadcastTo S256x2000 (k0_pay5 (F := Ideal) x0 x1) broadcasts_S256x1_S256x2000 (ix2 p j)) = _
  rw [pay4_at, hb]

theorem pay7_at (p : Fin 256) (j : Fin 2000) :
    k0_pay7 (F := Ideal) x0 x1 (ix2 p j) = logWeight (zsOf x0) (msOf x1) p j := by
  unfold logWeight
  have hb : broadcastTo S256x2000 (log (k0_pay5 (F := Ideal) x0 x1)) broadcasts_S256x1_S256x2000 (ix2 p j) = Ideal.log (denom (zsOf x0) (msOf x1) p) :=
    (broadcastTo_a1_ab_apply _ broadcasts_S256x1_S256x2000 p j).trans (congrArg Ideal.log (pay5_at x0 x1 p (0 : Fin 1)))
  show k0_pay3 (F := Ideal) x0 x1 (ix2 p j) - broadcastTo S256x2000 (log (k0_pay5 (F := Ideal) x0 x1)) broadcasts_S256x1_S256x2000 (ix2 p j) = _
  rw [pay3_at, hb]

/-! ## The three stored values -/

theorem readout_at (c : Fin 512) (p : Fin 256) :
    k0_pay8 (F := Ideal) x0 x1 (ix3 (0 : Fin 1) c p) = readout (zsOf x0) (msOf x1) c p := by
  unfold k0_pay8 readout
  refine (shapeCast_ab_1ab_apply _ shapeCasts_S512x256_S1x512x256 (0 : Fin 1) c p).trans ?_
  refine (matmul_read_apply (k0_pay2 (F := Ideal) x1) (k0_pay6 (F := Ideal) x0 x1) c p).trans ?_
  exact Finset.sum_congr rfl fun j _ => congrArg₂ (· * ·) (slab_at x1 c j) (pay6_at x0 x1 p j)
theorem weight_at (p : Fin 256) (j : Fin 2000) :
    k0_pay9 (F := Ideal) x0 x1 (ix3 (0 : Fin 1) p j) = weight (zsOf x0) (msOf x1) p j := by
  unfold k0_pay9
  exact (shapeCast_ab_1ab_apply _ shapeCasts_S256x2000_S1x256x2000 (0 : Fin 1) p j).trans (pay6_at x0 x1 p j)
theorem logWeight_at (p : Fin 256) (j : Fin 2000) :
    k0_pay1 (F := Ideal) (k0_pay7 x0 x1) (ix3 (0 : Fin 1) p j) = logWeight (zsOf x0) (msOf x1) p j := by
  unfold k0_pay1
  exact (shapeCast_ab_1ab_apply _ shapeCasts_S256x2000_S1x256x2000 (0 : Fin 1) p j).trans (pay7_at x0 x1 p j)

end Cert.KernelIdeal.Payload

end
-- ==== Proof.Blocks.lean ====
/-
  From the grid points to the whole result arrays.

  The kernel runs 64 grid points. Point `t` reads two table words: `perm t`, the sample it works on, and the class
  of that sample. Its five index maps are those words: the sample's block of the flattened `z`, the class's slab of
  the class-major `memory`, and the sample's block of each of the three results. So

  * the sample's block is sample `perm t` of `z`, pixel `p` of the flattened image being row `p / 16`, column
    `p % 16`; the slab's block is `memory[0, :, :, k]` for `k` the class of that sample;
  * what the point writes back into each result is, by the body's arithmetic, the per-sample specification of that
    sample, i.e. the point's block of ONE whole-array function of the arguments;
  * the table is injective, so consecutive points have different block indices and every point writes back; it is
    onto the samples, so the blocks written back cover each result array. Hence each result array ends as that
    whole-array function.

  The table facts used are collected in `TableFacts`; they are proved from the precondition elsewhere.
-/
import proofs.«404096_j45681272160457_2_alg».proof.Proof.Gen.KernelIdeal.Frame
import proofs.«404096_j45681272160457_2_alg».proof.Proof.Pieces
import proofs.«404096_j45681272160457_2_alg».proof.Proof.Spec
import proofs.«404096_j45681272160457_2_alg».proof.Proof.Payload
import Idealize.ShloMosaic.Lib.Pipeline.Value
import Idealize.ShloMosaic.Lib.SortFacts
import Idealize.ShloMosaic.Lib.ValueIdx

set_option maxRecDepth 16384

noncomputable section

namespace Cert.KernelIdeal.Blocks

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F] (m : (ℓ : Loc nD τ sig) → Buf (Elt F) ℓ)

/-! ## The tables' words -/

/-- Word `t` of the permutation table, of the table of sorted classes, and of the class labels as launched. -/
abbrev permW (t : Fin 64) : BitVec 32 := (tbl m 0 : S64.Idx → BitVec 32) (Shape.Idx.ofFin t)
abbrev sclsW (t : Fin 64) : BitVec 32 := (tbl m 1 : S64.Idx → BitVec 32) (Shape.Idx.ofFin t)
abbrev clsW (n : Fin 64) : BitVec 32 := (m (((0 : Dev nD).tc : Thread nD τ).loc main_arg1) : S64.Idx → BitVec 32) (Shape.Idx.ofFin n)

/-- What the value proof uses of the tables: the first is a permutation of the 64 samples, the second holds the
    class of the sample the first names, and every class is one of the ten. -/
structure TableFacts : Prop where
  perm_lt : ∀ t : Fin 64, (permW m t).toNat < 64
  perm_inj : Function.Injective fun t : Fin 64 => (permW m t).toNat
  perm_surj : ∀ n : Fin 64, ∃ t : Fin 64, (permW m t).toNat = n.val
  scls_eq : ∀ t : Fin 64, sclsW m t = clsW m ⟨(permW m t).toNat, perm_lt t⟩
  cls_lt : ∀ n : Fin 64, (clsW m n).toNat < 10

/-! ## The index maps in closed form -/

/-- Point `t` of the one-axis grid has coordinate `t`. -/
theorem coords_val (t : Fin 64) : ((grid0.coords t) 0).val = t.val := by
  have hs : grid0.stride 0 = 1 := by decide
  show t.val / grid0.stride 0 % 64 = t.val
  rw [hs]; have := t.isLt; omega

theorem coords_ofFin (t : Fin 64) : (Shape.Idx.ofFin ((grid0.coords t) 0) : S64.Idx) = Shape.Idx.ofFin t := by
  funext a; exact Fin.ext (coords_val t)

/-- A grid coordinate as a 32-bit word and back. -/
theorem word_toNat (i : grid0.Coords) : (Scalar.indexCast (BitVec.ofNat 32 (i 0).val)).toNat = (i 0).val := by
  show (BitVec.ofNat 32 (i 0).val).toNat = _
  rw [BitVec.toNat_ofNat]
  have h : (i 0).val < 64 := (i 0).isLt
  exact Nat.mod_eq_of_lt (by omega)

/-- An index map's load of table word `i`. -/
theorem at0 (pf : pre0.Contents (Elt F)) (i : grid0.Coords) :
    pf.at 0 (Rect.unit (s := S64) ![(Scalar.indexCast (BitVec.ofNat 32 (i 0).val)).toNat] S1.size (k0_off1_inb i)) numel1_S1
      = (pf 0 : S64.Idx → BitVec 32) (Shape.Idx.ofFin (i 0)) := by
  show (pf 0 : S64.Idx → BitVec 32) _ = (pf 0 : S64.Idx → BitVec 32) _
  refine congrArg (pf 0 : S64.Idx → BitVec 32) (funext fun (a : Fin 1) => Fin.ext ?_)
  have ha : a = 0 := Subsingleton.elim _ _
  subst ha
  show (Scalar.indexCast (BitVec.ofNat 32 (i 0).val)).toNat + 1 * 0 = (i 0).val
  rw [word_toNat]; omega
theorem at1 (pf : pre0.Contents (Elt F)) (i : grid0.Coords) :
    pf.at 1 (Rect.unit (s := S64) ![(Scalar.indexCast (BitVec.ofNat 32 (i 0).val)).toNat] S1.size (k0_off1_inb i)) numel1_S1
      = (pf 1 : S64.Idx → BitVec 32) (Shape.Idx.ofFin (i 0)) := by
  show (pf 1 : S64.Idx → BitVec 32) _ = (pf 1 : S64.Idx → BitVec 32) _
  refine congrArg (pf 1 : S64.Idx → BitVec 32) (funext fun (a : Fin 1) => Fin.ext ?_)
  have ha : a = 0 := Subsingleton.elim _ _
  subst ha
  show (Scalar.indexCast (BitVec.ofNat 32 (i 0).val)).toNat + 1 * 0 = (i 0).val
  rw [word_toNat]; omega

/-- The five index maps at a grid point: the sample's block, the class's slab, the sample's three result blocks. -/
theorem transform0_eq (t : Fin 64) :
    cc0_transform_0 k0_off1_inb numel1_S1 (tbl m) (grid0.coords t) = ![(permW m t).toNat, 0, 0] := by
  unfold cc0_transform_0; dsimp only; rw [at0, coords_ofFin]; rfl
theorem transform1_eq (t : Fin 64) :
    cc0_transform_1 k0_off1_inb numel1_S1 (tbl m) (grid0.coords t) = ![0, (sclsW m t).toNat, 0, 0] := by
  unfold cc0_transform_1; dsimp only; rw [at1, coords_ofFin]; rfl
theorem transform2_eq (t : Fin 64) :
    cc0_transform_2 k0_off1_inb numel1_S1 (tbl m) (grid0.coords t) = ![(permW m t).toNat, 0, 0] := by
  unfold cc0_transform_2; dsimp only; rw [at0, coords_ofFin]; rfl
theorem transform3_eq (t : Fin 64) :
    cc0_transform_3 k0_off1_inb numel1_S1 (tbl m) (grid0.coords t) = ![(permW m t).toNat, 0, 0] := by
  unfold cc0_transform_3; dsimp only; rw [at0, coords_ofFin]; rfl
theorem transform4_eq (t : Fin 64) :
    cc0_transform_4 k0_off1_inb numel1_S1 (tbl m) (grid0.coords t) = ![(permW m t).toNat, 0, 0] := by
  unfold cc0_transform_4; dsimp only; rw [at0, coords_ofFin]; rfl

variable (hO : Ok m)

/-- The grid has 64 points; a point as a number below 64. -/
theorem N64 : (cfgM m hO).N = 64 := rfl
abbrev pt (t : Fin (cfgM m hO).N) : Fin 64 := t.cast (N64 m hO)

theorem index0 (t : Fin (cfgM m hO).N) : ((cfgM m hO).win (0 : Fin 5)).index t = ![(permW m (pt m hO t)).toNat, 0, 0] := by
  unfold Pipeline.Window.index
  dsimp only [cfgM, cfg0, Pipeline.PCfg.at, Pipeline.PCfg.win, pcfg0, Pipeline.PCfg.ofSpecs, Pipeline.WinSpec.pin, ix0]
  exact transform0_eq m (pt m hO t)
theorem index1 (t : Fin (cfgM m hO).N) : ((cfgM m hO).win (1 : Fin 5)).index t = ![0, (sclsW m (pt m hO t)).toNat, 0, 0] := by
  unfold Pipeline.Window.index
  dsimp only [cfgM, cfg0, Pipeline.PCfg.at, Pipeline.PCfg.win, pcfg0, Pipeline.PCfg.ofSpecs, Pipeline.WinSpec.pin, ix0]
  exact transform1_eq m (pt m hO t)
theorem index2 (t : Fin (cfgM m hO).N) : ((cfgM m hO).win (2 : Fin 5)).index t = ![(permW m (pt m hO t)).toNat, 0, 0] := by
  unfold Pipeline.Window.index
  dsimp only [cfgM, cfg0, Pipeline.PCfg.at, Pipeline.PCfg.win, pcfg0, Pipeline.PCfg.ofSpecs, Pipeline.WinSpec.pin, ix0]
  exact transform2_eq m (pt m hO t)
theorem index3 (t : Fin (cfgM m hO).N) : ((cfgM m hO).win (3 : Fin 5)).index t = ![(permW m (pt m hO t)).toNat, 0, 0] := by
  unfold Pipeline.Window.index
  dsimp only [cfgM, cfg0, Pipeline.PCfg.at, Pipeline.PCfg.win, pcfg0, Pipeline.PCfg.ofSpecs, Pipeline.WinSpec.pin, ix0]
  exact transform3_eq m (pt m hO t)
theorem index4 (t : Fin (cfgM m hO).N) : ((cfgM m hO).win (4 : Fin 5)).index t = ![(permW m (pt m hO t)).toNat, 0, 0] := by
  unfold Pipeline.Window.index
  dsimp only [cfgM, cfg0, Pipeline.PCfg.at, Pipeline.PCfg.win, pcfg0, Pipeline.PCfg.ofSpecs, Pipeline.WinSpec.pin, ix0]
  exact transform4_eq m (pt m hO t)

/-! ## The input blocks read at an index -/

variable (c : Dev nD)

/-- The two input blocks of a point, at their literal types. -/
abbrev zblk (t : Fin (cfgM m hO).N) : Vec F S1x512x256 .f32 := iblk m hO c 0 t
abbrev mblk (t : Fin (cfgM m hO).N) : Vec F S1x1x512x2000 .f32 := iblk m hO c 1 t
/-- The two arrays the region fetches them from: `z` with its pixels flattened, and `memory` with the class axis in front. -/
abbrev zflat : S64x512x256.Idx → Elt F .f32 := V m c main_v0
abbrev memT : S1x10x512x2000.Idx → Elt F .f32 := V m c main_v1

theorem zblk_at (T : TableFacts m) (t : Fin (cfgM m hO).N) (cc : Fin 512) (p : Fin 256) :
    zblk m hO c t (ix3 (0 : Fin 1) cc p) = zflat m c (ix3 ⟨(permW m (pt m hO t)).toNat, T.perm_lt _⟩ cc p) := by
  show zflat m c ((((cfgM m hO).win (0 : Fin 5)).blk t).view.emb (ix3 (0 : Fin 1) cc p)) = _
  refine congrArg (zflat m c) (funext fun a => Fin.ext ?_)
  match a with
  | ⟨0, _⟩ =>
    show ((cfgM m hO).win (0 : Fin 5)).index t 0 * 1 + 1 * 0 = (permW m (pt m hO t)).toNat
    rw [index0]; simp
  | ⟨1, _⟩ =>
    show ((cfgM m hO).win (0 : Fin 5)).index t 1 * 512 + 1 * cc.val = cc.val
    rw [index0]; simp
  | ⟨2, _⟩ =>
    show ((cfgM m hO).win (0 : Fin 5)).index t 2 * 256 + 1 * p.val = p.val
    rw [index0]; simp

theorem mblk_at (t : Fin (cfgM m hO).N) (k : Fin 10) (hk : (sclsW m (pt m hO t)).toNat = k.val) (cc : Fin 512) (j : Fin 2000) :
    mblk m hO c t (ix4 (0 : Fin 1) (0 : Fin 1) cc j) = memT m c (ix4 (0 : Fin 1) k cc j) := by
  show memT m c ((((cfgM m hO).win (1 : Fin 5)).blk t).view.emb (ix4 (0 : Fin 1) (0 : Fin 1) cc j)) = _
  refine congrArg (memT m c) (funext fun a => Fin.ext ?_)
  match a with
  | ⟨0, _⟩ =>
    show ((cfgM m hO).win (1 : Fin 5)).index t 0 * 1 + 1 * 0 = 0
    rw [index1]; simp
  | ⟨1, _⟩ =>
    show ((cfgM m hO).win (1 : Fin 5)).index t 1 * 1 + 1 * 0 = k.val
    rw [index1, ← hk]; simp
  | ⟨2, _⟩ =>
    show ((cfgM m hO).win (1 : Fin 5)).index t 2 * 512 + 1 * cc.val = cc.val
    rw [index1]; simp
  | ⟨3, _⟩ =>
    show ((cfgM m hO).win (1 : Fin 5)).index t 3 * 2000 + 1 * j.val = j.val
    rw [index1]; simp

/-! ## The two fetched arrays, from the arguments -/

/-- The arguments as launched. -/
abbrev zArg : S64x512x16x16.Idx → Elt F .f32 := m ((c.tc : Thread nD τ).loc main_arg0)
abbrev memArg : S1x512x2000x10.Idx → Elt F .f32 := m ((c.tc : Thread nD τ).loc main_arg2)

theorem zflat_eq : zflat m c = shapeCast S64x512x256 (zArg m c) shapeCasts_S64x512x16x16_S64x512x256 := by
  dsimp only [zflat, Gen.V, Gen.V0]
  simp only [Gen.hostOps0, Gen.hostOps0_1, Gen.hostOps0_2, List.flatten_cons, List.flatten_nil, List.append_nil, List.cons_append, List.nil_append]
  after_results
  rfl

theorem memT_eq : memT m c = transpose S1x10x512x2000 [0, 3, 1, 2] (memArg m c) transposes_S1x512x2000x10_S1x10x512x2000_0_3_1_2 := by
  dsimp only [memT, Gen.V, Gen.V0]
  simp only [Gen.hostOps0, Gen.hostOps0_1, Gen.hostOps0_2, List.flatten_cons, List.flatten_nil, List.append_nil, List.cons_append, List.nil_append]
  after_results
  all_goals rfl

/-- The flattened `z` at (n, c, p) is `z` at (n, c, p / 16, p % 16). -/
theorem zflat_at (n : Fin 64) (cc : Fin 512) (p : Fin 256) :
    zflat m c (ix3 n cc p) = zArg m c (ix4 n cc (Cert.ClassMemory.pixRow p) (Cert.ClassMemory.pixCol p)) := by
  rw [zflat_eq]
  refine shapeCast_apply (zArg m c) shapeCasts_S64x512x16x16_S64x512x256 (ix3 n cc p) _ ?_
  rewrite [Shape.rowMajor_val_four, Shape.rowMajor_val_three]
  have hp := p.isLt
  show ((n.val * 512 + cc.val) * 16 + p.val / 16) * 16 + p.val % 16 = (n.val * 512 + cc.val) * 256 + p.val
  omega

/-- The class-major memory at (0, k, c, j) is `memory` at (0, c, j, k). -/
theorem memT_at (k : Fin 10) (cc : Fin 512) (j : Fin 2000) :
    memT m c (ix4 (0 : Fin 1) k cc j) = memArg m c (ix4 (0 : Fin 1) cc j k) := by
  rw [memT_eq]
  refine transpose_apply [0, 3, 1, 2] (memArg m c) transposes_S1x512x2000x10_S1x10x512x2000_0_3_1_2 (ix4 (0 : Fin 1) k cc j) _ ?_
  intro b
  match b with
  | ⟨0, _⟩ => rfl
  | ⟨1, _⟩ => rfl
  | ⟨2, _⟩ => rfl
  | ⟨3, _⟩ => rfl

end Cert.KernelIdeal.Blocks

/-! ## At the ideal instance: what each point writes back -/

namespace Cert.KernelIdeal.BlocksIdeal

open Cert.KernelIdeal Cert.KernelIdeal.Gen Cert.KernelIdeal.Blocks Cert.ClassMemory
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (hO : Ok m) (c : Dev nD)

/-- The three arguments as extended-real arrays and words. -/
abbrev zA : S64x512x16x16.Idx → EReal := m ((c.tc : Thread nD τ).loc main_arg0)
abbrev clsA : S64.Idx → BitVec 32 := m ((c.tc : Thread nD τ).loc main_arg1)
abbrev memA : S1x512x2000x10.Idx → EReal := m ((c.tc : Thread nD τ).loc main_arg2)

variable (T : TableFacts m)

/-- The sample point `t` works on: the one the permutation names. -/
def sampleNo (t : Fin (cfgM m hO).N) : Fin 64 := ⟨(permW m (pt m hO t)).toNat, T.perm_lt _⟩

/-- There is one device. -/
theorem dev_eq : c = 0 := Subsingleton.elim _ _

include T

/-- The sample's block is sample `sampleNo t` of `z`. -/
theorem sample_eq (t : Fin (cfgM m hO).N) :
    Cert.KernelIdeal.Payload.zsOf (zblk m hO c t) = sampleOf (zA m c) (sampleNo m hO T t) := by
  funext cc p
  exact (zblk_at m hO c T t cc p).trans (zflat_at m c _ cc p)

/-- The class label of a sample, read either way the library writes a rank-1 index, on the one device. -/
theorem cls_word (n : Fin 64) : clsA m c (ix1 n) = clsW m n := by
  obtain rfl := dev_eq c
  exact congrArg (clsA m 0) (ix1_eq_ofFin n)

/-- The class the point's slab is fetched for is the class of its sample. -/
theorem class_val (t : Fin (cfgM m hO).N) :
    (sclsW m (pt m hO t)).toNat = (classOf (clsA m c (ix1 (sampleNo m hO T t)))).val := by
  rw [cls_word (T := T), T.scls_eq]
  exact (classOf_val _ (T.cls_lt _)).symm

/-- The slab's block is the slab of `memory` that sample addresses. -/
theorem slab_eq (t : Fin (cfgM m hO).N) :
    Cert.KernelIdeal.Payload.msOf (mblk m hO c t) = slabAt (clsA m c) (memA m c) (sampleNo m hO T t) := by
  funext cc j
  exact (mblk_at m hO c t _ (class_val m hO c T t) cc j).trans (memT_at m c _ cc j)

/-- What the body leaves in the three output blocks at point `t`. -/
theorem out2_eq (t : Fin (cfgM m hO).N) : (outsAt0 m hO c t).1 = k0_pay8 (zblk m hO c t) (mblk m hO c t) := by
  unfold outsAt0; dsimp only
  exact Cert.KernelIdeal.Pieces.readout_piece c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (zblk m hO c t) (mblk m hO c t) (tbl m 0) (tbl m 1)
theorem out3_eq (t : Fin (cfgM m hO).N) : (outsAt0 m hO c t).2.1 = k0_pay9 (zblk m hO c t) (mblk m hO c t) := by
  unfold outsAt0; dsimp only
  exact Cert.KernelIdeal.Pieces.weight_piece c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (zblk m hO c t) (mblk m hO c t) (tbl m 0) (tbl m 1)
theorem out4_eq (t : Fin (cfgM m hO).N) : (outsAt0 m hO c t).2.2 = k0_pay1 (k0_pay7 (zblk m hO c t) (mblk m hO c t)) := by
  unfold outsAt0; dsimp only
  exact Cert.KernelIdeal.Pieces.logWeight_piece c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (zblk m hO c t) (mblk m hO c t) (tbl m 0) (tbl m 1)

/-- Where block index (0, a, b) of the readout' window sits in its array at point `t`. -/
theorem emb2 (t : Fin (cfgM m hO).N) (a : Fin 512) (bb : Fin 256) :
    (((cfgM m hO).win (2 : Fin 5)).blk t).view.emb (ix3 (0 : Fin 1) a bb) = (ix3 (sampleNo m hO T t) a bb : S64x512x256.Idx) := by
  funext d
  apply Fin.ext
  match d with
  | ⟨0, _⟩ =>
    show ((cfgM m hO).win (2 : Fin 5)).index t 0 * 1 + 1 * 0 = (permW m (pt m hO t)).toNat
    rw [index2]; simp
  | ⟨1, _⟩ =>
    show ((cfgM m hO).win (2 : Fin 5)).index t 1 * 512 + 1 * a.val = a.val
    rw [index2]; simp
  | ⟨2, _⟩ =>
    show ((cfgM m hO).win (2 : Fin 5)).index t 2 * 256 + 1 * bb.val = bb.val
    rw [index2]; simp

/-- The block of the readout point `t` writes back is its block of the whole array. -/
theorem flushed2 (t : Fin (cfgM m hO).N) :
    (dats m hO 0 c).flushed 2 t
      = (((cfgM m hO).win (2 : Fin 5)).blk t).view.read (Elt Ideal) (readoutFlat (zA m c) (clsA m c) (memA m c)) := by
  show ((cfgM m hO).win (2 : Fin 5)).cut ((cfgM m hO).grid.coords t) ((dats m hO 0 c).after 2 t) = _
  rw [after0_2, out2_eq (T := T)]
  funext (y : S1x512x256.Idx)
  obtain ⟨y0, a, bb, rfl⟩ : ∃ (y0 : Fin 1) (a : Fin 512) (bb : Fin 256), y = ix3 y0 a bb := ⟨y 0, y 1, y 2, eq_ix3 y⟩
  obtain rfl : y0 = 0 := Subsingleton.elim _ _
  show k0_pay8 (zblk m hO c t) (mblk m hO c t) (ix3 (0 : Fin 1) a bb)
    = readoutFlat (zA m c) (clsA m c) (memA m c) ((((cfgM m hO).win (2 : Fin 5)).blk t).view.emb (ix3 (0 : Fin 1) a bb))
  rw [emb2 (T := T), Cert.KernelIdeal.Payload.readout_at, sample_eq (T := T), slab_eq (T := T)]
  rfl

/-- Every point writes its block of the readout back: the next point works on another sample. -/
theorem flush2 (t : Fin (cfgM m hO).N) : ((cfgM m hO).win (2 : Fin 5)).flush t = true := by
  unfold Pipeline.Window.flush
  simp only [Bool.and_eq_true, Bool.or_eq_true, decide_eq_true_eq]
  refine ⟨by first | trivial | rfl, ?_⟩
  have hN : (cfgM m hO).grid.N = 64 := rfl
  have hN' : (cfgM m hO).N = 64 := rfl
  by_cases hl : t.val + 1 = (cfgM m hO).grid.N
  · exact Or.inl hl
  · have hlt : t.val + 1 < (cfgM m hO).grid.N := by have := t.isLt; omega
    refine Or.inr ⟨hlt, fun h => ?_⟩
    rw [index2, index2] at h
    have h0 := congrFun h (0 : Fin 3)
    have h1 : (permW m (pt m hO ⟨t.val + 1, hlt⟩)).toNat = (permW m (pt m hO t)).toNat := by simpa using h0
    have h2 := congrArg Fin.val (T.perm_inj h1)
    simp [pt] at h2

/-- The blocks written back cover the array: every sample is some point's. -/
theorem cover2 (i : S64x512x256.Idx) :
    ∃ t : Fin (cfgM m hO).N, ((cfgM m hO).win (2 : Fin 5)).flush t = true ∧ i ∈ (((cfgM m hO).win (2 : Fin 5)).blk t).view.set := by
  obtain ⟨n, a, bb, rfl⟩ : ∃ (n : Fin 64) (a : Fin 512) (bb : Fin 256), i = ix3 n a bb := ⟨i 0, i 1, i 2, eq_ix3 i⟩
  obtain ⟨t0, ht0⟩ := T.perm_surj n
  refine ⟨t0.cast (N64 m hO).symm, flush2 m hO T _, ?_⟩
  have hs : sampleNo m hO T (t0.cast (N64 m hO).symm) = n := Fin.ext ht0
  have e : (ix3 n a bb : S64x512x256.Idx) = (((cfgM m hO).win (2 : Fin 5)).blk (t0.cast (N64 m hO).symm)).view.emb (ix3 (0 : Fin 1) a bb) := by
    rw [emb2 (T := T), hs]
  rw [e]
  exact View.emb_mem_set _ _

/-- The array of the readout after the region. -/
theorem final2 : (dats m hO 0 c).arrAt 2 (cfgM m hO).N = readoutFlat (zA m c) (clsA m c) (memA m c) :=
  (dats m hO 0 c).arrAt_eq_of_cover 2 _ (fun t _ => flushed2 m hO c T t) (cover2 m hO T)

/-- Where block index (0, a, b) of the weights' window sits in its array at point `t`. -/
theorem emb3 (t : Fin (cfgM m hO).N) (a : Fin 256) (bb : Fin 2000) :
    (((cfgM m hO).win (3 : Fin 5)).blk t).view.emb (ix3 (0 : Fin 1) a bb) = (ix3 (sampleNo m hO T t) a bb : S64x256x2000.Idx) := by
  funext d
  apply Fin.ext
  match d with
  | ⟨0, _⟩ =>
    show ((cfgM m hO).win (3 : Fin 5)).index t 0 * 1 + 1 * 0 = (permW m (pt m hO t)).toNat
    rw [index3]; simp
  | ⟨1, _⟩ =>
    show ((cfgM m hO).win (3 : Fin 5)).index t 1 * 256 + 1 * a.val = a.val
    rw [index3]; simp
  | ⟨2, _⟩ =>
    show ((cfgM m hO).win (3 : Fin 5)).index t 2 * 2000 + 1 * bb.val = bb.val
    rw [index3]; simp

/-- The block of the weights point `t` writes back is its block of the whole array. -/
theorem flushed3 (t : Fin (cfgM m hO).N) :
    (dats m hO 0 c).flushed 3 t
      = (((cfgM m hO).win (3 : Fin 5)).blk t).view.read (Elt Ideal) (weightArr (zA m c) (clsA m c) (memA m c)) := by
  show ((cfgM m hO).win (3 : Fin 5)).cut ((cfgM m hO).grid.coords t) ((dats m hO 0 c).after 3 t) = _
  rw [after0_3, out3_eq (T := T)]
  funext (y : S1x256x2000.Idx)
  obtain ⟨y0, a, bb, rfl⟩ : ∃ (y0 : Fin 1) (a : Fin 256) (bb : Fin 2000), y = ix3 y0 a bb := ⟨y 0, y 1, y 2, eq_ix3 y⟩
  obtain rfl : y0 = 0 := Subsingleton.elim _ _
  show k0_pay9 (zblk m hO c t) (mblk m hO c t) (ix3 (0 : Fin 1) a bb)
    = weightArr (zA m c) (clsA m c) (memA m c) ((((cfgM m hO).win (3 : Fin 5)).blk t).view.emb (ix3 (0 : Fin 1) a bb))
  rw [emb3 (T := T), Cert.KernelIdeal.Payload.weight_at, sample_eq (T := T), slab_eq (T := T)]
  rfl

/-- Every point writes its block of the weights back: the next point works on another sample. -/
theorem flush3 (t : Fin (cfgM m hO).N) : ((cfgM m hO).win (3 : Fin 5)).flush t = true := by
  unfold Pipeline.Window.flush
  simp only [Bool.and_eq_true, Bool.or_eq_true, decide_eq_true_eq]
  refine ⟨by first | trivial | rfl, ?_⟩
  have hN : (cfgM m hO).grid.N = 64 := rfl
  have hN' : (cfgM m hO).N = 64 := rfl
  by_cases hl : t.val + 1 = (cfgM m hO).grid.N
  · exact Or.inl hl
  · have hlt : t.val + 1 < (cfgM m hO).grid.N := by have := t.isLt; omega
    refine Or.inr ⟨hlt, fun h => ?_⟩
    rw [index3, index3] at h
    have h0 := congrFun h (0 : Fin 3)
    have h1 : (permW m (pt m hO ⟨t.val + 1, hlt⟩)).toNat = (permW m (pt m hO t)).toNat := by simpa using h0
    have h2 := congrArg Fin.val (T.perm_inj h1)
    simp [pt] at h2

/-- The blocks written back cover the array: every sample is some point's. -/
theorem cover3 (i : S64x256x2000.Idx) :
    ∃ t : Fin (cfgM m hO).N, ((cfgM m hO).win (3 : Fin 5)).flush t = true ∧ i ∈ (((cfgM m hO).win (3 : Fin 5)).blk t).view.set := by
  obtain ⟨n, a, bb, rfl⟩ : ∃ (n : Fin 64) (a : Fin 256) (bb : Fin 2000), i = ix3 n a bb := ⟨i 0, i 1, i 2, eq_ix3 i⟩
  obtain ⟨t0, ht0⟩ := T.perm_surj n
  refine ⟨t0.cast (N64 m hO).symm, flush3 m hO T _, ?_⟩
  have hs : sampleNo m hO T (t0.cast (N64 m hO).symm) = n := Fin.ext ht0
  have e : (ix3 n a bb : S64x256x2000.Idx) = (((cfgM m hO).win (3 : Fin 5)).blk (t0.cast (N64 m hO).symm)).view.emb (ix3 (0 : Fin 1) a bb) := by
    rw [emb3 (T := T), hs]
  rw [e]
  exact View.emb_mem_set _ _

/-- The array of the weights after the region. -/
theorem final3 : (dats m hO 0 c).arrAt 3 (cfgM m hO).N = weightArr (zA m c) (clsA m c) (memA m c) :=
  (dats m hO 0 c).arrAt_eq_of_cover 3 _ (fun t _ => flushed3 m hO c T t) (cover3 m hO T)

/-- Where block index (0, a, b) of the weights' logarithms' window sits in its array at point `t`. -/
theorem emb4 (t : Fin (cfgM m hO).N) (a : Fin 256) (bb : Fin 2000) :
    (((cfgM m hO).win (4 : Fin 5)).blk t).view.emb (ix3 (0 : Fin 1) a bb) = (ix3 (sampleNo m hO T t) a bb : S64x256x2000.Idx) := by
  funext d
  apply Fin.ext
  match d with
  | ⟨0, _⟩ =>
    show ((cfgM m hO).win (4 : Fin 5)).index t 0 * 1 + 1 * 0 = (permW m (pt m hO t)).toNat
    rw [index4]; simp
  | ⟨1, _⟩ =>
    show ((cfgM m hO).win (4 : Fin 5)).index t 1 * 256 + 1 * a.val = a.val
    rw [index4]; simp
  | ⟨2, _⟩ =>
    show ((cfgM m hO).win (4 : Fin 5)).index t 2 * 2000 + 1 * bb.val = bb.val
    rw [index4]; simp

/-- The block of the weights' logarithms point `t` writes back is its block of the whole array. -/
theorem flushed4 (t : Fin (cfgM m hO).N) :
    (dats m hO 0 c).flushed 4 t
      = (((cfgM m hO).win (4 : Fin 5)).blk t).view.read (Elt Ideal) (logWeightArr (zA m c) (clsA m c) (memA m c)) := by
  show ((cfgM m hO).win (4 : Fin 5)).cut ((cfgM m hO).grid.coords t) ((dats m hO 0 c).after 4 t) = _
  rw [after0_4, out4_eq (T := T)]
  funext (y : S1x256x2000.Idx)
  obtain ⟨y0, a, bb, rfl⟩ : ∃ (y0 : Fin 1) (a : Fin 256) (bb : Fin 2000), y = ix3 y0 a bb := ⟨y 0, y 1, y 2, eq_ix3 y⟩
  obtain rfl : y0 = 0 := Subsingleton.elim _ _
  show k0_pay1 (k0_pay7 (zblk m hO c t) (mblk m hO c t)) (ix3 (0 : Fin 1) a bb)
    = logWeightArr (zA m c) (clsA m c) (memA m c) ((((cfgM m hO).win (4 : Fin 5)).blk t).view.emb (ix3 (0 : Fin 1) a bb))
  rw [emb4 (T := T), Cert.KernelIdeal.Payload.logWeight_at, sample_eq (T := T), slab_eq (T := T)]
  rfl

/-- Every point writes its block of the weights' logarithms back: the next point works on another sample. -/
theorem flush4 (t : Fin (cfgM m hO).N) : ((cfgM m hO).win (4 : Fin 5)).flush t = true := by
  unfold Pipeline.Window.flush
  simp only [Bool.and_eq_true, Bool.or_eq_true, decide_eq_true_eq]
  refine ⟨by first | trivial | rfl, ?_⟩
  have hN : (cfgM m hO).grid.N = 64 := rfl
  have hN' : (cfgM m hO).N = 64 := rfl
  by_cases hl : t.val + 1 = (cfgM m hO).grid.N
  · exact Or.inl hl
  · have hlt : t.val + 1 < (cfgM m hO).grid.N := by have := t.isLt; omega
    refine Or.inr ⟨hlt, fun h => ?_⟩
    rw [index4, index4] at h
    have h0 := congrFun h (0 : Fin 3)
    have h1 : (permW m (pt m hO ⟨t.val + 1, hlt⟩)).toNat = (permW m (pt m hO t)).toNat := by simpa using h0
    have h2 := congrArg Fin.val (T.perm_inj h1)
    simp [pt] at h2

/-- The blocks written back cover the array: every sample is some point's. -/
theorem cover4 (i : S64x256x2000.Idx) :
    ∃ t : Fin (cfgM m hO).N, ((cfgM m hO).win (4 : Fin 5)).flush t = true ∧ i ∈ (((cfgM m hO).win (4 : Fin 5)).blk t).view.set := by
  obtain ⟨n, a, bb, rfl⟩ : ∃ (n : Fin 64) (a : Fin 256) (bb : Fin 2000), i = ix3 n a bb := ⟨i 0, i 1, i 2, eq_ix3 i⟩
  obtain ⟨t0, ht0⟩ := T.perm_surj n
  refine ⟨t0.cast (N64 m hO).symm, flush4 m hO T _, ?_⟩
  have hs : sampleNo m hO T (t0.cast (N64 m hO).symm) = n := Fin.ext ht0
  have e : (ix3 n a bb : S64x256x2000.Idx) = (((cfgM m hO).win (4 : Fin 5)).blk (t0.cast (N64 m hO).symm)).view.emb (ix3 (0 : Fin 1) a bb) := by
    rw [emb4 (T := T), hs]
  rw [e]
  exact View.emb_mem_set _ _

/-- The array of the weights' logarithms after the region. -/
theorem final4 : (dats m hO 0 c).arrAt 4 (cfgM m hO).N = logWeightArr (zA m c) (clsA m c) (memA m c) :=
  (dats m hO 0 c).arrAt_eq_of_cover 4 _ (fun t _ => flushed4 m hO c T t) (cover4 m hO T)

end Cert.KernelIdeal.BlocksIdeal

end
-- ==== Proof.Tables.lean ====
/-
  The two prefetched tables of the kernel, and the side condition of its pipeline.

  The program sorts the 64 class labels (a stable sort of the pairs (label, position) by label, signed) and keeps
  the permuted positions: table 0, `perm`. It then reads the labels through that table: table 1, the labels in
  sorted order. Every index map of the kernel reads one word of a table at its grid coordinate: windows 0, 2, 3, 4
  take sample `perm t`, window 1 takes the memory slab of the label `cls (perm t)`.

  Proved here, for any float instance: table 0 holds a permutation of 0 … 63 as words; table 1 at `t` is the label
  at position `perm t`; under the precondition every label is below 10; hence every block the pipeline fetches or
  flushes lies inside its array.
-/
import proofs.«404096_j45681272160457_2_alg».proof.Proof.Gen.KernelIdeal.Frame
import proofs.«404096_j45681272160457_2_alg».proof.Proof.Gen.Pre_finite_inputs
import Idealize.ShloMosaic.Lib.SortFacts
import Idealize.ShloMosaic.Lib.StableHlo.Predicate
import Idealize.ShloMosaic.Lib.ReduceAll
import Idealize.ShloMosaic.Lib.ValueIdx

set_option maxRecDepth 16384

noncomputable section

namespace Cert.KernelIdeal.Tables

open Cert.KernelIdeal Cert.KernelIdeal.Gen
open Idealize.ShloMosaic Idealize.ShloMosaic.TcCoe Idealize.SL.Sem

variable {F : FTy → Type} [FloatOps F] (m : (ℓ : Loc nD τ sig) → Buf (Elt F) ℓ)

/-- The precondition, read at any float instance. -/
def PreAt : Prop := ∀ c : Dev nD,
  Cert.Pre_finite_inputs.fn (F := F) (m ((c.tc : Thread nD τ).loc main_arg0)) (m ((c.tc : Thread nD τ).loc main_arg1))
    (m ((c.tc : Thread nD τ).loc main_arg2)) = (fun _ => 1#1)

/-- The class labels as launched (the one device's). -/
abbrev clsArr : S64.Idx → BitVec 32 := m (((0 : Dev nD).tc : Thread nD τ).loc main_arg1)

/-- The two prefetched tables as words. -/
abbrev permTbl : S64.Idx → BitVec 32 := tbl m 0
abbrev sclsTbl : S64.Idx → BitVec 32 := tbl m 1

/-! ## The class labels are in range

The precondition ends in the conjunction of three `all`s; the third says that every class label is at least 0
and below 10 as a signed word, hence below 10 as a natural number. -/

local instance : Subsingleton Cert.Pre_finite_inputs.S_.Idx := ⟨fun a b => funext fun d => d.elim0⟩

/-- A word that is at least 0 and below 10, both signed, is below 10 unsigned. -/
theorem toNat_lt_ten (w : BitVec 32) (h0 : IntOp.cmpi .sge w 0#32 = 1#1) (h10 : IntOp.cmpi .slt w 10#32 = 1#1) :
    w.toNat < 10 := by
  have h32 := w.isLt
  have hpos : w.toNat < 2 ^ 31 := by
    unfold IntOp.cmpi at h0
    rw [StableHlo.Predicate.ofBool_eq_one_iff] at h0
    simp only [BitVec.sle, decide_eq_true_eq, BitVec.toInt_eq_toNat_cond] at h0
    split at h0 <;> split at h0 <;> simp at * <;> omega
  have := (StableHlo.Predicate.slt_iff_toNat hpos (by decide)).mp h10
  simpa using this

theorem cls_lt (h : PreAt m) (n : Fin 64) : (clsArr m (Shape.Idx.ofFin n)).toNat < 10 := by
  have e := congrFun (h 0) ValueIdx.ix0
  unfold Cert.Pre_finite_inputs.fn at e
  dsimp only at e
  obtain ⟨_, e14⟩ := IntOp.andi_eq_one.mp e
  have e13 := Host.reduce_andi_all _ _ _ _ _ e14 (Shape.Idx.ofFin n)
  obtain ⟨h0, h10⟩ := IntOp.andi_eq_one.mp e13
  exact toNat_lt_ten _ h0 h10

/-! ## The contents of the two tables

Table 0 is the second component of the stable sort of the pairs (label, position) by label: the sorting
permutation written as words. Table 1 is the labels read through table 0, after the wrap of negative positions
that stands in front of the read. -/

open Idealize.ShloMosaic.StableHlo in
theorem perm_contents :
    permTbl m = (Host.sort2 S64 0 comparator_i32_i32_d0 (clsArr m) (iotaInDim S64 32 0)).2 := by
  unfold permTbl Gen.tbl
  show (V m 0 main_v2 : S64.Idx → BitVec 32) = _
  dsimp only [Gen.V, Gen.V0]
  simp only [Gen.hostOps0, Gen.hostOps0_1, Gen.hostOps0_2, List.flatten_cons, List.flatten_nil, List.append_nil,
    List.cons_append, List.nil_append]
  after_results
  (simp only [TRef.ofBuf, TRef.toBuf, cast_eq]) <;> rfl

/-- The start positions of the read: table 0 with its negative words wrapped by the length. -/
def wrapped : S64.Idx → BitVec 32 :=
  select (cmpi .slt (permTbl m) (broadcastInDim S64 ![] bcast_S_S64 (constantI S_ 32 0#32)))
    (addi (permTbl m) (broadcastInDim S64 ![] bcast_S_S64 (constantI S_ 32 64#32))) (permTbl m)

open Idealize.ShloMosaic.StableHlo in
theorem scls_contents :
    sclsTbl m = Host.gather gather_S64_S64x1_S64_n_0_n_n_0_1_1 (clsArr m)
      (broadcastInDim S64x1 ![0] bcast_S64_S64x1_0 (wrapped m)) := by
  unfold wrapped
  rw [perm_contents]
  unfold sclsTbl Gen.tbl
  show (V m 0 main_v9 : S64.Idx → BitVec 32) = _
  dsimp only [Gen.V, Gen.V0]
  simp only [Gen.hostOps0, Gen.hostOps0_1, Gen.hostOps0_2, List.flatten_cons, List.flatten_nil, List.append_nil,
    List.cons_append, List.nil_append]
  after_results
  (simp only [TRef.ofBuf, TRef.toBuf, cast_eq]) <;> rfl

/-! ## The sorting permutation -/

/-- On a vector, the carried operand of a two-operand sort along its one axis is read through ONE self-map of the
    positions: the stable sorting permutation of the pairs. -/
theorem sort2_rank1_snd {n : Nat} {α β : Type} (cmp : α × β → α × β → BitVec 1)
    (x : (⟨1, ![n]⟩ : Shape).Idx → α) (y : (⟨1, ![n]⟩ : Shape).Idx → β) (j : (⟨1, ![n]⟩ : Shape).Idx) :
    (Host.sort2 ⟨1, ![n]⟩ 0 cmp x y).2 j
      = y (Shape.Idx.ofFin (sortedFrom (fun k k' => cmp (x (Shape.Idx.ofFin k), y (Shape.Idx.ofFin k))
          (x (Shape.Idx.ofFin k'), y (Shape.Idx.ofFin k')) == 1#1) (j 0))) := by
  unfold Host.sort2
  simp

/-- Position `k` sorts before position `k'`: its label is the smaller one, signed. -/
def before (k k' : Fin 64) : Bool :=
  comparator_i32_i32_d0 (clsArr m (Shape.Idx.ofFin k), iotaInDim S64 32 0 (Shape.Idx.ofFin k))
    (clsArr m (Shape.Idx.ofFin k'), iotaInDim S64 32 0 (Shape.Idx.ofFin k')) == 1#1

/-- The sorting permutation: the position whose sample lands at `t`. -/
def sigma : Fin 64 → Fin 64 := sortedFrom (before m)

theorem sigma_injective : Function.Injective (sigma m) := sortedFrom_injective _
theorem sigma_surjective : Function.Surjective (sigma m) := sortedFrom_surjective _

/-- Table 0 at `t` is the word of `sigma t`. -/
theorem perm_apply (t : Fin 64) : permTbl m (Shape.Idx.ofFin t) = BitVec.ofNat 32 (sigma m t).val := by
  rw [perm_contents, sort2_rank1_snd, Shape.Idx.ofFin_zero, StableHlo.Predicate.iota_apply]
  unfold sigma before
  rfl

theorem perm_toNat (t : Fin 64) : (permTbl m (Shape.Idx.ofFin t)).toNat = (sigma m t).val := by
  rw [perm_apply, BitVec.toNat_ofNat]
  exact Nat.mod_eq_of_lt (lt_trans (sigma m t).isLt (by decide))

theorem perm_lt (t : Fin 64) : (permTbl m (Shape.Idx.ofFin t)).toNat < 64 := by
  rw [perm_toNat]; exact (sigma m t).isLt

theorem perm_injective : Function.Injective fun t : Fin 64 => (permTbl m (Shape.Idx.ofFin t)).toNat := by
  intro t t' e
  simp only [perm_toNat] at e
  exact sigma_injective m (Fin.ext e)

theorem perm_surjective (n : Fin 64) : ∃ t : Fin 64, (permTbl m (Shape.Idx.ofFin t)).toNat = n.val := by
  obtain ⟨t, ht⟩ := sigma_surjective m n
  exact ⟨t, by rw [perm_toNat, ht]⟩

/-! ## Table 1: the labels in sorted order

A word of table 0 is below 64, so it is not negative as a signed word and the wrap leaves it alone; the read
then takes the label at that position: neither its clamp nor its signed reading of the position changes it. -/

/-- A word of table 0 is not negative, so the wrap leaves it alone. -/
theorem wrapped_apply (t : Fin 64) : wrapped m (Shape.Idx.ofFin t) = permTbl m (Shape.Idx.ofFin t) := by
  have hlt := perm_lt m t
  have hc : cmpi .slt (permTbl m) (broadcastInDim S64 ![] bcast_S_S64 (constantI S_ 32 0#32)) (Shape.Idx.ofFin t)
      = 0#1 := by
    apply ValueIdx.eq_zero_of_ne_one
    intro h1
    have h2 := (StableHlo.Predicate.slt_iff_toNat (a := permTbl m (Shape.Idx.ofFin t)) (b := 0#32) (by omega)
      (by decide)).mp h1
    simp at h2
  unfold wrapped
  rw [ValueIdx.select_apply, hc, ValueIdx.select_zero]

theorem sortedCls_eq (t : Fin 64) :
    sclsTbl m (Shape.Idx.ofFin t)
      = clsArr m (Shape.Idx.ofFin ⟨(permTbl m (Shape.Idx.ofFin t)).toNat, perm_lt m t⟩) := by
  have hlt := perm_lt m t
  have e : broadcastInDim S64x1 ![0] bcast_S64_S64x1_0 (wrapped m) (StableHlo.Predicate.ixP t)
      = permTbl m (Shape.Idx.ofFin t) :=
    (StableHlo.Predicate.bcast_col1 bcast_S64_S64x1_0 (wrapped m) t).trans (wrapped_apply m t)
  have key : min (broadcastInDim S64x1 ![0] bcast_S64_S64x1_0 (wrapped m) (StableHlo.Predicate.ixP t)).toInt.toNat (64 - 1)
      = (permTbl m (Shape.Idx.ofFin t)).toNat := by
    rw [e, StableHlo.Predicate.toInt_eq_toNat_of_lt (by omega), Int.toNat_natCast]
    omega
  have g := StableHlo.Predicate.gather_take gather_S64_S64x1_S64_n_0_n_n_0_1_1 rfl rfl rfl rfl (clsArr m)
    (broadcastInDim S64x1 ![0] bcast_S64_S64x1_0 (wrapped m)) t (by decide)
  rw [scls_contents]
  refine g.trans ?_
  refine congrArg (fun k : Fin 64 => clsArr m (Shape.Idx.ofFin k)) (Fin.ext ?_)
  exact key
/-- The sorted label at `t` is in range. -/
theorem scls_lt (h : PreAt m) (t : Fin 64) : (sclsTbl m (Shape.Idx.ofFin t)).toNat < 10 := by
  rw [sortedCls_eq]; exact cls_lt m h _

/-! ## The index maps at the tables' words

Every index map reads one word of a table at the grid coordinate and puts it on one axis of its block index. -/

/-- The word an index map loads from table 0 at the offset `off`, when that offset is position `k`. -/
theorem at0_eq (pf : pre0.Contents (Elt F)) (off : Fin 1 → Nat) (inb : ∀ a, off a + S1.size a ≤ S64.size a)
    (k : Fin 64) (hk : off 0 = k.val) :
    pf.at 0 (Rect.unit (s := S64) off S1.size inb) numel1_S1 = (pf 0 : S64.Idx → BitVec 32) (Shape.Idx.ofFin k) := by
  refine congrArg (pf 0 : S64.Idx → BitVec 32) ?_
  funext a
  change Fin 1 at a
  obtain rfl : a = 0 := Subsingleton.elim _ _
  apply Fin.ext
  show off 0 + 1 * 0 = k.val
  omega

/-- The same for table 1. -/
theorem at1_eq (pf : pre0.Contents (Elt F)) (off : Fin 1 → Nat) (inb : ∀ a, off a + S1.size a ≤ S64.size a)
    (k : Fin 64) (hk : off 0 = k.val) :
    pf.at 1 (Rect.unit (s := S64) off S1.size inb) numel1_S1 = (pf 1 : S64.Idx → BitVec 32) (Shape.Idx.ofFin k) := by
  refine congrArg (pf 1 : S64.Idx → BitVec 32) ?_
  funext a
  change Fin 1 at a
  obtain rfl : a = 0 := Subsingleton.elim _ _
  apply Fin.ext
  show off 0 + 1 * 0 = k.val
  omega

/-- The offset the index maps load at is the grid coordinate. -/
theorem off_eq (i : grid0.Coords) : k0_off1 i 0 = (i 0).val := congrFun (k0_off1_eq i) 0

theorem transform_0_eq (pf : pre0.Contents (Elt F)) (i : grid0.Coords) :
    cc0_transform_0 k0_off1_inb numel1_S1 pf i = ![((pf 0 : S64.Idx → BitVec 32) (Shape.Idx.ofFin (i 0))).toNat, 0, 0] :=
  congrArg (fun w : BitVec 32 => (![w.toNat, 0, 0] : Fin 3 → Nat)) (at0_eq pf (k0_off1 i) (k0_off1_inb i) (i 0) (off_eq i))

theorem transform_1_eq (pf : pre0.Contents (Elt F)) (i : grid0.Coords) :
    cc0_transform_1 k0_off1_inb numel1_S1 pf i = ![0, ((pf 1 : S64.Idx → BitVec 32) (Shape.Idx.ofFin (i 0))).toNat, 0, 0] :=
  congrArg (fun w : BitVec 32 => (![0, w.toNat, 0, 0] : Fin 4 → Nat)) (at1_eq pf (k0_off1 i) (k0_off1_inb i) (i 0) (off_eq i))

theorem transform_2_eq (pf : pre0.Contents (Elt F)) (i : grid0.Coords) :
    cc0_transform_2 k0_off1_inb numel1_S1 pf i = ![((pf 0 : S64.Idx → BitVec 32) (Shape.Idx.ofFin (i 0))).toNat, 0, 0] :=
  congrArg (fun w : BitVec 32 => (![w.toNat, 0, 0] : Fin 3 → Nat)) (at0_eq pf (k0_off1 i) (k0_off1_inb i) (i 0) (off_eq i))

theorem transform_3_eq (pf : pre0.Contents (Elt F)) (i : grid0.Coords) :
    cc0_transform_3 k0_off1_inb numel1_S1 pf i = ![((pf 0 : S64.Idx → BitVec 32) (Shape.Idx.ofFin (i 0))).toNat, 0, 0] :=
  congrArg (fun w : BitVec 32 => (![w.toNat, 0, 0] : Fin 3 → Nat)) (at0_eq pf (k0_off1 i) (k0_off1_inb i) (i 0) (off_eq i))

theorem transform_4_eq (pf : pre0.Contents (Elt F)) (i : grid0.Coords) :
    cc0_transform_4 k0_off1_inb numel1_S1 pf i = ![((pf 0 : S64.Idx → BitVec 32) (Shape.Idx.ofFin (i 0))).toNat, 0, 0] :=
  congrArg (fun w : BitVec 32 => (![w.toNat, 0, 0] : Fin 3 → Nat)) (at0_eq pf (k0_off1 i) (k0_off1_inb i) (i 0) (off_eq i))

/-! ## Every block is inside its array -/

/-- A block of one slice on the first axis, at a slice index in range. -/
theorem inb_first (v n d1 d2 : Nat) (hv : v < n) :
    ∀ a : Fin 3, ((![v, 0, 0] : Fin 3 → Nat) a + 1) * (![1, d1, d2] : Fin 3 → Nat) a ≤ (![n, d1, d2] : Fin 3 → Nat) a
  | ⟨0, _⟩ => by show (v + 1) * 1 ≤ n; omega
  | ⟨1, _⟩ => by show (0 + 1) * d1 ≤ d1; omega
  | ⟨2, _⟩ => by show (0 + 1) * d2 ≤ d2; omega

/-- A block of one slice on the second axis, at a slice index in range. -/
theorem inb_second (v n d2 d3 : Nat) (hv : v < n) :
    ∀ a : Fin 4, ((![0, v, 0, 0] : Fin 4 → Nat) a + 1) * (![1, 1, d2, d3] : Fin 4 → Nat) a
      ≤ (![1, n, d2, d3] : Fin 4 → Nat) a
  | ⟨0, _⟩ => by show (0 + 1) * 1 ≤ 1; omega
  | ⟨1, _⟩ => by show (v + 1) * 1 ≤ n; omega
  | ⟨2, _⟩ => by show (0 + 1) * d2 ≤ d2; omega
  | ⟨3, _⟩ => by show (0 + 1) * d3 ≤ d3; omega

theorem ok_of_pre (h : PreAt m) : Ok m := by
  refine ⟨fun i => ⟨fun a => ?_, Or.inl rfl⟩, fun i => ⟨fun a => ?_, Or.inl rfl⟩, fun i => ⟨fun a => ?_, Or.inl rfl⟩,
    fun i => ⟨fun a => ?_, Or.inl rfl⟩, fun i => ⟨fun a => ?_, Or.inl rfl⟩⟩
  · rw [transform_0_eq]; exact inb_first _ 64 512 256 (perm_lt m (i 0)) a
  · rw [transform_1_eq]; exact inb_second _ 10 512 2000 (scls_lt m h (i 0)) a
  · rw [transform_2_eq]; exact inb_first _ 64 512 256 (perm_lt m (i 0)) a
  · rw [transform_3_eq]; exact inb_first _ 64 256 2000 (perm_lt m (i 0)) a
  · rw [transform_4_eq]; exact inb_first _ 64 256 2000 (perm_lt m (i 0)) a

end Cert.KernelIdeal.Tables

end
-- ==== Proof.KernelValue.lean ====
/-
  The idealized kernel's run with every result named.

  Under the precondition the permutation table reaches every sample once and the class table holds each
  sample's class, a class among the ten. So after the 64 grid points each of the three result arrays holds, at
  sample `n`, what the body computes from sample `n` of `z` and the slab of `memory` for `cls n`: the
  readout, the softmax weights and their logarithms of the per-sample specification. The one line after the region
  reshapes the readout's 256 pixels into a 16 × 16 image.
-/
import proofs.«404096_j45681272160457_2_alg».proof.Proof.Blocks
import proofs.«404096_j45681272160457_2_alg».proof.Proof.Tables

set_option maxRecDepth 16384

noncomputable section

namespace Cert.KernelIdeal.KernelValue

open Cert.KernelIdeal Cert.KernelIdeal.Gen Cert.KernelIdeal.Blocks Cert.KernelIdeal.BlocksIdeal Cert.KernelIdeal.Tables Cert.ClassMemory
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- Under the precondition the tables are what the value proof needs them to be. -/
theorem tableFacts (h : PreAt m) : TableFacts m :=
  ⟨perm_lt m, perm_injective m, perm_surjective m, sortedCls_eq m, cls_lt m h⟩

/-- The flat readout, its pixels regrouped 16 by 16, is the readout as an array of images. -/
theorem reshape_readout (z : S64x512x16x16.Idx → EReal) (cls : S64.Idx → BitVec 32) (mem : S1x512x2000x10.Idx → EReal) :
    shapeCast S64x512x16x16 (readoutFlat z cls mem) shapeCasts_S64x512x256_S64x512x16x16 = readoutArr z cls mem := by
  funext i
  obtain ⟨n, cc, hh, ww, rfl⟩ : ∃ (n : Fin 64) (cc : Fin 512) (hh ww : Fin 16), i = ix4 n cc hh ww := ⟨i 0, i 1, i 2, i 3, eq_ix4 i⟩
  refine (shapeCast_apply (readoutFlat z cls mem) shapeCasts_S64x512x256_S64x512x16x16 (ix4 n cc hh ww) (ix3 n cc (pixOf hh ww)) ?_).trans rfl
  rewrite [Shape.rowMajor_val_three, Shape.rowMajor_val_four]
  show (n.val * 512 + cc.val) * 256 + (hh.val * 16 + ww.val) = ((n.val * 512 + cc.val) * 16 + hh.val) * 16 + ww.val
  omega

section Tail

variable (hO : Ok m) (T : TableFacts m) (c : Dev nD)
include T

/-- The line after the region reshapes the readout's pixels into 16 × 16 images. -/
theorem tail_v11 :
    Pipeline.afterTail pcfgs (fun _ => adm m hO) (dats m hO) 0 (V0 m) [hostOps1] c main_v11
      = readoutArr (zA m c) (clsA m c) (memA m c) := by
  have hw : (Pipeline.withArrays (Pipeline.pin pcfgs (fun _ => adm m hO) 0).spec c (V0 m c)
      (fun w => (dats m hO 0 c).arrAt w (Pipeline.pin pcfgs (fun _ => adm m hO) 0).N) (Proc.devRef .tc main_v10_0) : S64x512x256.Idx → EReal)
      = readoutFlat (zA m c) (clsA m c) (memA m c) :=
    (Pipeline.withArrays_arr spec0 (launch0 (F := Ideal)).win.arr_inj c _ _ 2).trans (final2 m hO c T)
  unfold Pipeline.afterTail
  show StableHlo.after hostOps1 _ (Proc.devRef .tc main_v11) = _
  after_results
  show shapeCast S64x512x16x16 (Pipeline.withArrays (Pipeline.pin pcfgs (fun _ => adm m hO) 0).spec c (V0 m c)
      (fun w => (dats m hO 0 c).arrAt w (Pipeline.pin pcfgs (fun _ => adm m hO) 0).N) (Proc.devRef .tc main_v10_0) : S64x512x256.Idx → EReal)
      shapeCasts_S64x512x256_S64x512x16x16 = _
  exact (congrArg (fun x => shapeCast S64x512x16x16 x shapeCasts_S64x512x256_S64x512x16x16) hw).trans (reshape_readout _ _ _)

end Tail

/-- THE RUN: under the precondition every weakly fair execution of the idealized kernel ends with the readout, the
    weights (returned twice) and the weights' logarithms of the specification in its results, the arguments as launched. -/
theorem run (h : PreAt m) :
    θ_run defs (onTc (τ := τ) (main (F := Ideal))) ⟨m, fun _ => 0, ρ⟩ (fun r => ∀ c : Dev nD,
      r.2.mem ((c.tc : Thread nD τ).loc main_v11) = readoutArr (zA m c) (clsA m c) (memA m c)
      ∧ r.2.mem ((c.tc : Thread nD τ).loc main_v10_1) = weightArr (zA m c) (clsA m c) (memA m c)
      ∧ r.2.mem ((c.tc : Thread nD τ).loc main_v10_1) = weightArr (zA m c) (clsA m c) (memA m c)
      ∧ r.2.mem ((c.tc : Thread nD τ).loc main_v10_2) = logWeightArr (zA m c) (clsA m c) (memA m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ hh c =>
    ⟨((hh c).2 main_v11 (by decide : main_v11 ∈ Pipeline.restRefs sig spec0)).trans (tail_v11 m (ok_of_pre m h) (tableFacts m h) c),
     ((hh c).1 3).trans (final3 m (ok_of_pre m h) c (tableFacts m h)),
     ((hh c).1 3).trans (final3 m (ok_of_pre m h) c (tableFacts m h)),
     ((hh c).1 4).trans (final4 m (ok_of_pre m h) c (tableFacts m h)),
     ((hh c).2 main_arg0 (by decide : main_arg0 ∈ Pipeline.restRefs sig spec0)).trans (W_main_arg0 m (ok_of_pre m h) (dats m (ok_of_pre m h)) c),
     ((hh c).2 main_arg1 (by decide : main_arg1 ∈ Pipeline.restRefs sig spec0)).trans (W_main_arg1 m (ok_of_pre m h) (dats m (ok_of_pre m h)) c),
     ((hh c).2 main_arg2 (by decide : main_arg2 ∈ Pipeline.restRefs sig spec0)).trans (W_main_arg2 m (ok_of_pre m h) (dats m (ok_of_pre m h)) c)⟩)
    (run_main m ρ (ok_of_pre m h))

end Cert.KernelIdeal.KernelValue

end
-- ==== Proof.RefValue.lean ====
import proofs.«404096_j45681272160457_2_alg».proof.Proof.RefRead
import proofs.«404096_j45681272160457_2_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

/-!
  The reference's three results, as functions of three arbitrary argument arrays, are the readout, the weights and
  the logarithms of the weights of the specification, under the hypothesis that every class label is below 10.

  Each stage of the reference is read at an explicit index from the stage before it: the memory slab a label
  addresses (a reshape, the wrap of a negative label, a gather along the class axis and a transpose), the sample
  with its pixels flattened, the similarity (an inner product over the channels less the two squared norms), then
  for each of the two normalisations the row maximum, the shifted similarity, its exponential and the normaliser,
  and last the readout (an inner product over the slots) with its pixels laid out as an image again. The order
  of every product and difference is the specification's, so each stage closes term by term.
-/

set_option maxRecDepth 16384

noncomputable section

namespace Cert.ReferenceIdeal.RefValue

open Cert.ReferenceIdeal Cert.ReferenceIdeal.Gen Cert.ReferenceIdeal.ReadP Cert.ClassMemory
open Idealize.ShloMosaic Idealize.ShloMosaic.ValueIdx

variable (z : S64x512x16x16.Idx → EReal) (cls : S64.Idx → BitVec 32) (mem : S1x512x2000x10.Idx → EReal)

/-! ## Index equations

An index built by `ix1 … ix4` read through one of the program's index maps is again such an index; each
component is closed by unfolding. -/

local macro "idx1" : tactic => `(tactic| (funext a; match a with | ⟨0, _⟩ => rfl))
local macro "idx2" : tactic => `(tactic| (funext a; match a with | ⟨0, _⟩ => rfl | ⟨1, _⟩ => rfl))
local macro "idx3" : tactic => `(tactic| (funext a; match a with | ⟨0, _⟩ => rfl | ⟨1, _⟩ => rfl | ⟨2, _⟩ => rfl))

/-- The reshape of `memory` to three axes reads `(0, c, j, k)` at `(c, j, k)`. -/
theorem idx_v0 (c : Fin 512) (j : Fin 2000) (k : Fin 10) : idx_main_v0 (ix3 c j k) = ix4 (0 : Fin 1) c j k := by
  funext a
  refine Fin.ext ?_
  have := c.isLt; have := j.isLt; have := k.isLt
  match a with
  | ⟨0, _⟩ => rfl
  | ⟨1, _⟩ => show ((c.val * 2000 + j.val) * 10 + k.val) / 20000 % 512 = c.val; omega
  | ⟨2, _⟩ => show ((c.val * 2000 + j.val) * 10 + k.val) / 10 % 2000 = j.val; omega
  | ⟨3, _⟩ => show ((c.val * 2000 + j.val) * 10 + k.val) % 10 = k.val; omega

/-- The reshape of `z` to flat pixels reads pixel `p` at row `p / 16`, column `p % 16`. -/
theorem idx_v9 (n : Fin 64) (c : Fin 512) (p : Fin 256) : idx_main_v9 (ix3 n c p) = ix4 n c (pixRow p) (pixCol p) := by
  funext a
  refine Fin.ext ?_
  have := n.isLt; have := c.isLt; have := p.isLt
  match a with
  | ⟨0, _⟩ => show ((n.val * 512 + c.val) * 256 + p.val) / 131072 = n.val; omega
  | ⟨1, _⟩ => show ((n.val * 512 + c.val) * 256 + p.val) / 256 % 512 = c.val; omega
  | ⟨2, _⟩ => show ((n.val * 512 + c.val) * 256 + p.val) / 16 % 16 = p.val / 16; omega
  | ⟨3, _⟩ => show ((n.val * 512 + c.val) * 256 + p.val) % 16 = p.val % 16; omega

/-- The reshape of the readout to a 16 × 16 image reads pixel `h · 16 + w` at `(h, w)`. -/
theorem idx_v36 (n : Fin 64) (c : Fin 512) (h w : Fin 16) : idx_main_v36 (ix4 n c h w) = ix3 n c (pixOf h w) := by
  funext a
  refine Fin.ext ?_
  have := n.isLt; have := c.isLt; have := h.isLt; have := w.isLt
  match a with
  | ⟨0, _⟩ => show (((n.val * 512 + c.val) * 16 + h.val) * 16 + w.val) / 131072 = n.val; omega
  | ⟨1, _⟩ => show (((n.val * 512 + c.val) * 16 + h.val) * 16 + w.val) / 256 % 512 = c.val; omega
  | ⟨2, _⟩ => show (((n.val * 512 + c.val) * 16 + h.val) * 16 + w.val) % 256 = h.val * 16 + w.val; omega

/-! ## The slab a sample addresses -/

/-- The gather of this program read at an index: result `(c, j, n)` is the operand at `(c, j, k)`, `k` the start
    index of row `n` read signed and clamped into `[0, 9]`. -/
theorem gather_at {α : Type} {w : Nat} (x : S512x2000x10.Idx → α) (idx : IVec S64x1 w) (c : Fin 512) (j : Fin 2000) (n : Fin 64)
    (k : Fin 10) (hk : min (idx (ix2 n (0 : Fin 1))).toInt.toNat 9 = k.val) :
    Host.gather gather_S512x2000x10_S64x1_S512x2000x64_01_2_n_n_2_1_51220001 x idx (ix3 c j n) = x (ix3 c j k) := by
  unfold Host.gather
  congr 1
  funext a
  refine Fin.ext ?_
  match a with
  | ⟨0, _⟩ =>
    -- an offset axis: no start, no batching, the result's coordinate 0
    show gather_S512x2000x10_S64x1_S512x2000x64_01_2_n_n_2_1_51220001.start (ix3 c j n) idx 0 + gather_S512x2000x10_S64x1_S512x2000x64_01_2_n_n_2_1_51220001.batchCoord (ix3 c j n) 0 + gather_S512x2000x10_S64x1_S512x2000x64_01_2_n_n_2_1_51220001.offCoord (ix3 c j n) 0 = c.val
    rw [GatherDims.batchCoord_eq_zero _ _ _ List.not_mem_nil]
    unfold GatherDims.start
    rw [dif_neg (by decide)]
    unfold GatherDims.offCoord
    rw [dif_pos (by decide), Nat.zero_add]
    rfl
  | ⟨1, _⟩ =>
    show gather_S512x2000x10_S64x1_S512x2000x64_01_2_n_n_2_1_51220001.start (ix3 c j n) idx 1 + gather_S512x2000x10_S64x1_S512x2000x64_01_2_n_n_2_1_51220001.batchCoord (ix3 c j n) 1 + gather_S512x2000x10_S64x1_S512x2000x64_01_2_n_n_2_1_51220001.offCoord (ix3 c j n) 1 = j.val
    rw [GatherDims.batchCoord_eq_zero _ _ _ List.not_mem_nil]
    unfold GatherDims.start
    rw [dif_neg (by decide)]
    unfold GatherDims.offCoord
    rw [dif_pos (by decide), Nat.zero_add]
    rfl
  | ⟨2, _⟩ =>
    -- the collapsed axis: the clamped start index, read at row n of the column
    show gather_S512x2000x10_S64x1_S512x2000x64_01_2_n_n_2_1_51220001.start (ix3 c j n) idx 2 + gather_S512x2000x10_S64x1_S512x2000x64_01_2_n_n_2_1_51220001.batchCoord (ix3 c j n) 2 + gather_S512x2000x10_S64x1_S512x2000x64_01_2_n_n_2_1_51220001.offCoord (ix3 c j n) 2 = _
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos (show (2 : Fin 3) ∈ gather_S512x2000x10_S64x1_S512x2000x64_01_2_n_n_2_1_51220001.startIndexMap from List.mem_singleton.mpr rfl)]
    have hsi : gather_S512x2000x10_S64x1_S512x2000x64_01_2_n_n_2_1_51220001.siIdx (ix3 c j n)
        ⟨List.idxOf (2 : Fin 3) gather_S512x2000x10_S64x1_S512x2000x64_01_2_n_n_2_1_51220001.startIndexMap,
          List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    exact hk

/-- The wrap of a negative label (10 is added to a label below 0) leaves a label in range alone: its signed
    comparison with 0 is false. -/
theorem wrap_at (hc : ∀ n : Fin 64, (cls (ix1 n)).toNat < 10) (n : Fin 64) :
    val_main_v5 (F := Ideal) cls (ix1 n) = cls (ix1 n) := by
  have h0 : val_main_v2 (F := Ideal) cls (ix1 n) = 0#1 := by
    rw [val_main_v2_apply, val_main_v1_apply, val_main_c_apply]
    refine eq_zero_of_ne_one fun h => ?_
    have hlt := (StableHlo.Predicate.slt_iff_toNat (by have := hc n; omega) (by decide)).mp h
    exact Nat.not_lt_zero _ hlt
  rw [val_main_v5_apply, h0, select_zero]

/-- The gathered and transposed memory at `(n, c, j)` is the slab of sample `n`'s class at `(c, j)`. -/
theorem slab_at (hc : ∀ n : Fin 64, (cls (ix1 n)).toNat < 10) (n : Fin 64) (c : Fin 512) (j : Fin 2000) :
    val_main_v8 (F := Ideal) cls mem (ix3 n c j) = slabAt cls mem n c j := by
  have hk := hc n
  have hint : (cls (ix1 n)).toInt.toNat = (cls (ix1 n)).toNat := by
    rw [StableHlo.Predicate.toInt_eq_toNat_of_lt (by omega)]; exact Int.toNat_natCast _
  have hidx : val_main_v6 (F := Ideal) cls (ix2 n (0 : Fin 1)) = cls (ix1 n) := by
    rw [val_main_v6_apply, show idx_main_v6 (ix2 n (0 : Fin 1)) = ix1 n by idx1, wrap_at cls hc n]
  rw [val_main_v8_apply, show idx_main_v8 (ix3 n c j) = ix3 c j n by idx3]
  unfold val_main_v7
  rw [gather_at _ _ c j n (classOf (cls (ix1 n)))
    (by rw [hidx, hint, classOf_val _ hk]; exact Nat.min_eq_left (by omega)), val_main_v0_apply, idx_v0]
  rfl

/-! ## The sample and the similarity -/

/-- The flattened `z` at `(n, c, p)` is sample `n` at `(c, p)`. -/
theorem sample_at (n : Fin 64) (c : Fin 512) (p : Fin 256) :
    val_main_v9 (F := Ideal) z (ix3 n c p) = sampleOf z n c p := by
  rw [val_main_v9_apply, idx_v9]
  rfl

/-- The inner products over the channels. -/
theorem dot_at (hc : ∀ n : Fin 64, (cls (ix1 n)).toNat < 10) (n : Fin 64) (p : Fin 256) (j : Fin 2000) :
    val_main_v10 (F := Ideal) z cls mem (ix3 n p j) = ∑ c : Fin 512, sampleOf z n c p * slabAt cls mem n c j := by
  rw [val_main_v10_apply]
  refine Finset.sum_congr rfl fun c _ => ?_
  rw [show lidx_main_v10 (ix3 n p j) c = ix3 n c p by idx3, show ridx_main_v10 (ix3 n p j) c = ix3 n c j by idx3,
    sample_at, slab_at cls mem hc]

/-- The squared norm of pixel `p`'s column. -/
theorem sqz_at (n : Fin 64) (p : Fin 256) :
    val_main_v12 (F := Ideal) z (ix2 n p) = ∑ c : Fin 512, sampleOf z n c p * sampleOf z n c p := by
  rw [val_main_v12_apply, val_main_cst_apply, Ideal.ofBits_def, Ideal.ofBits_zero_f32, zero_add]
  refine Finset.sum_congr rfl fun c _ => ?_
  rw [val_main_v11_apply, show idx_main_v12 (ix2 n p) c = ix3 n c p by idx3, sample_at]
  rfl

/-- The squared norm of slot `j`'s column. -/
theorem sqm_at (hc : ∀ n : Fin 64, (cls (ix1 n)).toNat < 10) (n : Fin 64) (j : Fin 2000) :
    val_main_v15 (F := Ideal) cls mem (ix2 n j) = ∑ c : Fin 512, slabAt cls mem n c j * slabAt cls mem n c j := by
  rw [val_main_v15_apply, val_main_cst_1_apply, Ideal.ofBits_def, Ideal.ofBits_zero_f32, zero_add]
  refine Finset.sum_congr rfl fun c _ => ?_
  rw [val_main_v14_apply, show idx_main_v15 (ix2 n j) c = ix3 n c j by idx3, slab_at cls mem hc]
  rfl

/-- The similarity of pixel `p` and slot `j` of sample `n`. -/
theorem sim_at (hc : ∀ n : Fin 64, (cls (ix1 n)).toNat < 10) (n : Fin 64) (p : Fin 256) (j : Fin 2000) :
    val_main_v22 (F := Ideal) z cls mem (ix3 n p j) = sim (sampleOf z n) (slabAt cls mem n) p j := by
  rw [val_main_v22_apply, val_main_v20_apply, val_main_v18_apply, val_main_v17_apply, val_main_cst_2_apply,
    dot_at z cls mem hc, val_main_v19_apply, val_main_v13_apply,
    show idx_main_v13 (idx_main_v19 (ix3 n p j)) = ix2 n p by idx2, sqz_at,
    val_main_v21_apply, val_main_v16_apply,
    show idx_main_v16 (idx_main_v21 (ix3 n p j)) = ix2 n j by idx2, sqm_at cls mem hc]
  rfl

/-! ## The row maximum -/

/-- A host reduction of the similarity by `max` along the slots, from a start whose element is the word of `−∞`, is at
    `(n, p)` the row maximum. -/
theorem max_fold_at (hc : ∀ n : Fin 64, (cls (ix1 n)).toNat < 10) (init : S_.Idx → EReal)
    (hi : init (Shape.Idx.first h_S_) = negInf) (n : Fin 64) (p : Fin 256) :
    Host.reduce (FloatOps.maximumf (F := Ideal) (φ := .f32)) (val_main_v22 (F := Ideal) z cls mem) init
        reducesTo_S64x256x2000_S64x256_d2 h_S_ (ix2 n p)
      = rowMax (sampleOf z n) (slabAt cls mem n) p := by
  rw [Host.reduce_eq_fold_single _ _ _ reducesTo_S64x256x2000_S64x256_d2 (by decide) h_S_, hi]
  unfold rowMax
  refine Finset.fold_congr fun j _ => ?_
  refine Eq.trans (congrArg (val_main_v22 (F := Ideal) z cls mem) ?_) (sim_at z cls mem hc n p j)
  idx3

/-! ## The logarithm of the weights (the stages of the inlined log-softmax) -/

/-- The row maximum, before the maximum with `−∞` that follows it. -/
theorem lmax_at (hc : ∀ n : Fin 64, (cls (ix1 n)).toNat < 10) (n : Fin 64) (p : Fin 256) :
    val_main_call0_v0 (F := Ideal) z cls mem (ix2 n p) = rowMax (sampleOf z n) (slabAt cls mem n) p :=
  max_fold_at z cls mem hc _ rfl n p

/-- The similarity less its row maximum. -/
theorem lshifted_at (hc : ∀ n : Fin 64, (cls (ix1 n)).toNat < 10) (n : Fin 64) (p : Fin 256) (j : Fin 2000) :
    val_main_call0_v5 (F := Ideal) z cls mem (ix3 n p j) = shifted (sampleOf z n) (slabAt cls mem n) p j := by
  rw [val_main_call0_v5_apply, sim_at z cls mem hc, val_main_call0_v4_apply, val_main_call0_v3_apply,
    show idx_main_call0_v3 (idx_main_call0_v4 (ix3 n p j)) = ix2 n p by idx2,
    val_main_call0_v2_apply, val_main_call0_v1_apply, val_main_call0_cst_0_apply, lmax_at z cls mem hc,
    Ideal.maximumf_def, Ideal.ofBits_def, max_negInf_rowMax]
  rfl

/-- Its exponential. -/
theorem lexpo_at (hc : ∀ n : Fin 64, (cls (ix1 n)).toNat < 10) (n : Fin 64) (p : Fin 256) (j : Fin 2000) :
    val_main_call0_v6 (F := Ideal) z cls mem (ix3 n p j) = expo (sampleOf z n) (slabAt cls mem n) p j := by
  rw [val_main_call0_v6_apply, lshifted_at z cls mem hc, Ideal.hostUnary_exp_def]
  rfl

/-- The normaliser: the sum of the exponentials over the slots, from 0. -/
theorem ldenom_at (hc : ∀ n : Fin 64, (cls (ix1 n)).toNat < 10) (n : Fin 64) (p : Fin 256) :
    val_main_call0_v7 (F := Ideal) z cls mem (ix2 n p) = denom (sampleOf z n) (slabAt cls mem n) p := by
  rw [val_main_call0_v7_apply, val_main_call0_cst_1_apply, Ideal.ofBits_def, Ideal.ofBits_zero_f32, zero_add]
  unfold denom
  refine Finset.sum_congr rfl fun j _ => ?_
  rw [show idx_main_call0_v7 (ix2 n p) j = ix3 n p j by idx3, lexpo_at z cls mem hc]

/-- The shifted similarity less the logarithm of the normaliser. -/
theorem logWeight_at (hc : ∀ n : Fin 64, (cls (ix1 n)).toNat < 10) (n : Fin 64) (p : Fin 256) (j : Fin 2000) :
    val_main_v23 (F := Ideal) z cls mem (ix3 n p j) = logWeight (sampleOf z n) (slabAt cls mem n) p j := by
  rw [val_main_v23_apply, lshifted_at z cls mem hc, val_main_call0_v10_apply, val_main_call0_v9_apply,
    val_main_call0_v8_apply, show idx_main_call0_v8 (idx_main_call0_v10 (ix3 n p j)) = ix2 n p by idx2,
    ldenom_at z cls mem hc, Ideal.hostUnary_log_def]
  rfl

/-! ## The weights (the stages of the softmax) -/

/-- The row maximum, before the maximum with `−∞` that follows it. -/
theorem wmax_at (hc : ∀ n : Fin 64, (cls (ix1 n)).toNat < 10) (n : Fin 64) (p : Fin 256) :
    val_main_v24 (F := Ideal) z cls mem (ix2 n p) = rowMax (sampleOf z n) (slabAt cls mem n) p :=
  max_fold_at z cls mem hc _ rfl n p

/-- The similarity less its row maximum. -/
theorem wshifted_at (hc : ∀ n : Fin 64, (cls (ix1 n)).toNat < 10) (n : Fin 64) (p : Fin 256) (j : Fin 2000) :
    val_main_v29 (F := Ideal) z cls mem (ix3 n p j) = shifted (sampleOf z n) (slabAt cls mem n) p j := by
  rw [val_main_v29_apply, sim_at z cls mem hc, val_main_v28_apply, val_main_v27_apply,
    show idx_main_v27 (idx_main_v28 (ix3 n p j)) = ix2 n p by idx2,
    val_main_v26_apply, val_main_v25_apply, val_main_cst_4_apply, wmax_at z cls mem hc,
    Ideal.maximumf_def, Ideal.ofBits_def, max_negInf_rowMax]
  rfl

/-- Its exponential. -/
theorem wexpo_at (hc : ∀ n : Fin 64, (cls (ix1 n)).toNat < 10) (n : Fin 64) (p : Fin 256) (j : Fin 2000) :
    val_main_v30 (F := Ideal) z cls mem (ix3 n p j) = expo (sampleOf z n) (slabAt cls mem n) p j := by
  rw [val_main_v30_apply, wshifted_at z cls mem hc, Ideal.hostUnary_exp_def]
  rfl

/-- The normaliser: the sum of the exponentials over the slots, from 0. -/
theorem wdenom_at (hc : ∀ n : Fin 64, (cls (ix1 n)).toNat < 10) (n : Fin 64) (p : Fin 256) :
    val_main_v31 (F := Ideal) z cls mem (ix2 n p) = denom (sampleOf z n) (slabAt cls mem n) p := by
  rw [val_main_v31_apply, val_main_cst_5_apply, Ideal.ofBits_def, Ideal.ofBits_zero_f32, zero_add]
  unfold denom
  refine Finset.sum_congr rfl fun j _ => ?_
  rw [show idx_main_v31 (ix2 n p) j = ix3 n p j by idx3, wexpo_at z cls mem hc]

/-- The exponential over the normaliser. -/
theorem weight_at (hc : ∀ n : Fin 64, (cls (ix1 n)).toNat < 10) (n : Fin 64) (p : Fin 256) (j : Fin 2000) :
    val_main_v34 (F := Ideal) z cls mem (ix3 n p j) = weight (sampleOf z n) (slabAt cls mem n) p j := by
  rw [val_main_v34_apply, wexpo_at z cls mem hc, val_main_v33_apply, val_main_v32_apply,
    show idx_main_v32 (idx_main_v33 (ix3 n p j)) = ix2 n p by idx2, wdenom_at z cls mem hc, Ideal.hostDivf_def]
  rfl

/-! ## The readout -/

/-- The slab read out with the weights, over the slots, at flat pixel `p`. -/
theorem readout_flat_at (hc : ∀ n : Fin 64, (cls (ix1 n)).toNat < 10) (n : Fin 64) (c : Fin 512) (p : Fin 256) :
    val_main_v35 (F := Ideal) z cls mem (ix3 n c p) = readout (sampleOf z n) (slabAt cls mem n) c p := by
  rw [val_main_v35_apply]
  unfold readout
  refine Finset.sum_congr rfl fun j _ => ?_
  rw [show lidx_main_v35 (ix3 n c p) j = ix3 n c j by idx3, show ridx_main_v35 (ix3 n c p) j = ix3 n p j by idx3,
    slab_at cls mem hc, weight_at z cls mem hc]

/-! ## The three results as whole arrays -/

/-- The readout with its pixels as a 16 × 16 image. -/
theorem readout_stage (hc : ∀ n : Fin 64, (cls (ix1 n)).toNat < 10) :
    val_main_v36 (F := Ideal) z cls mem = readoutArr z cls mem := by
  funext i
  obtain ⟨n, c, h, w, rfl⟩ : ∃ n c h w, i = ix4 n c h w := ⟨i 0, i 1, i 2, i 3, eq_ix4 i⟩
  rw [val_main_v36_apply, idx_v36, readout_flat_at z cls mem hc]
  rfl
/-- The weights. -/
theorem weight_stage (hc : ∀ n : Fin 64, (cls (ix1 n)).toNat < 10) :
    val_main_v34 (F := Ideal) z cls mem = weightArr z cls mem := by
  funext i
  obtain ⟨n, p, j, rfl⟩ : ∃ n p j, i = ix3 n p j := ⟨i 0, i 1, i 2, eq_ix3 i⟩
  rw [weight_at z cls mem hc]
  rfl
/-- The logarithms of the weights. -/
theorem logWeight_stage (hc : ∀ n : Fin 64, (cls (ix1 n)).toNat < 10) :
    val_main_v23 (F := Ideal) z cls mem = logWeightArr z cls mem := by
  funext i
  obtain ⟨n, p, j, rfl⟩ : ∃ n p j, i = ix3 n p j := ⟨i 0, i 1, i 2, eq_ix3 i⟩
  rw [logWeight_at z cls mem hc]
  rfl

end Cert.ReferenceIdeal.RefValue

end
-- ==== Proof.lean ====
/-
  The certificate of a class-conditioned memory read: for every sample `n` (of 64), the similarity of each of its 256
  pixels to each of the 2000 slots of the memory slab `memory[0, :, :, cls n]` (minus the squared distance, expanded as
  2 z·m − |z|² − |m|²), its softmax along the slots, the logarithm of that softmax, and the slab read out with the softmax
  weights. The kernel works the samples in the order a stable sort of the class labels puts them in (so that successive
  grid points reuse a slab) and writes each sample's three result blocks at the sample's own place; the reference computes
  the same four results for all samples at once. Both are the per-sample specification of `Spec.lean`, sample by sample.

  The claim holds for class labels in `0 … 9`, the indices of the class axis of `memory` (extent 10), which the reference
  indexes with `cls`. A label outside that range is no index of that axis (the lowered reference wraps a negative one and
  clamps the rest, so it still returns some slab), and the kernel's block index for the slab then leaves its array, so
  that not even its frame holds there. That range is the one conjunct added to the precondition (finite float inputs).

  * the two kernel frames: the generated frame holds once every table-indexed block lies inside its array, which the
    precondition gives (`Tables.lean`: the sorted order is a permutation of the samples, the sorted classes are classes);
  * the reference's frame: its run with the results dropped;
  * nothing was rewritten by the idealization, so there is nothing to preserve;
  * the algebraic claim: the kernel's run (`KernelValue.lean`) and the reference's run read stage by stage
    (`RefValue.lean`) end in the same three arrays of the arguments, which agree.
-/
import proofs.«404096_j45681272160457_2_alg».proof.Defs
import proofs.«404096_j45681272160457_2_alg».proof.Proof.Gen.Kernel
import proofs.«404096_j45681272160457_2_alg».proof.Proof.Gen.Kernel.Frame
import proofs.«404096_j45681272160457_2_alg».proof.Proof.Gen.KernelIdeal
import proofs.«404096_j45681272160457_2_alg».proof.Proof.Gen.KernelIdeal.Frame
import proofs.«404096_j45681272160457_2_alg».proof.Proof.Gen.ReferenceIdeal
import proofs.«404096_j45681272160457_2_alg».proof.Proof.Gen.Pre_finite_inputs
import proofs.«404096_j45681272160457_2_alg».proof.Proof.TablesW
import proofs.«404096_j45681272160457_2_alg».proof.Proof.KernelValue
import proofs.«404096_j45681272160457_2_alg».proof.Proof.RefReadEq
import proofs.«404096_j45681272160457_2_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx
open Cert.ClassMemory

/-- The word-level kernel runs: its table-indexed blocks are inside their arrays under the precondition. -/
theorem frame_k : Cert.frame_Kernel := fun m ρ h => Cert.Kernel.Gen.frame m ρ (Cert.Kernel.Tables.ok_of_pre m h)

/-- So does the idealized kernel. -/
theorem frame_ki : Cert.frame_KernelIdeal := fun m ρ h => Cert.KernelIdeal.Gen.frame m ρ (Cert.KernelIdeal.Tables.ok_of_pre m h)

/-- The reference is host operations only: its run, the results dropped. -/
theorem frame_ri : Cert.frame_ReferenceIdeal := fun m ρ _ =>
  (θ_run Cert.ReferenceIdeal.defs _ _).mono (fun _ h c => (h c).2.2.2.2) (Cert.ReferenceIdeal.ValueP.run (F := Ideal) m ρ)

/-- The idealization rewrote nothing. -/
theorem preserves : Cert.preserves_Kernel_KernelIdeal := trivial

/-- Both idealized programs end with the specification's readout, weights (twice) and weights' logarithms of the arguments. -/
theorem algebraic : Cert.algebraic_KernelIdeal_ReferenceIdeal := by
  intro m ρ m' ρ' hpre hagree
  refine ⟨fun c => readoutArr (Cert.KernelIdeal.BlocksIdeal.zA m c) (Cert.KernelIdeal.BlocksIdeal.clsA m c) (Cert.KernelIdeal.BlocksIdeal.memA m c),
    fun c => weightArr (Cert.KernelIdeal.BlocksIdeal.zA m c) (Cert.KernelIdeal.BlocksIdeal.clsA m c) (Cert.KernelIdeal.BlocksIdeal.memA m c),
    fun c => weightArr (Cert.KernelIdeal.BlocksIdeal.zA m c) (Cert.KernelIdeal.BlocksIdeal.clsA m c) (Cert.KernelIdeal.BlocksIdeal.memA m c),
    fun c => logWeightArr (Cert.KernelIdeal.BlocksIdeal.zA m c) (Cert.KernelIdeal.BlocksIdeal.clsA m c) (Cert.KernelIdeal.BlocksIdeal.memA m c),
    Cert.KernelIdeal.KernelValue.run m ρ hpre, ?_⟩
  refine (θ_run Cert.ReferenceIdeal.defs _ _).mono (fun _ h c => ?_) (Cert.ReferenceIdeal.ValueP.run (F := Ideal) m' ρ')
  obtain ⟨h0, h1, h2, h3, ha⟩ := h c
  -- every class label is one of the ten
  have hc : ∀ n : Fin 64, ((Cert.KernelIdeal.BlocksIdeal.clsA m c) (ix1 n)).toNat < 10 := fun n => by
    rw [Cert.KernelIdeal.BlocksIdeal.cls_word m c (Cert.KernelIdeal.KernelValue.tableFacts m hpre) n]
    exact (Cert.KernelIdeal.KernelValue.tableFacts m hpre).cls_lt n
  refine ⟨h0.trans ?_, h1.trans ?_, h2.trans ?_, h3.trans ?_, ha⟩
  · rw [Cert.ReferenceIdeal.ReadP.val_main_v36_eq, (hagree c).1, (hagree c).2.1, (hagree c).2.2]
    exact Cert.ReferenceIdeal.RefValue.readout_stage _ _ _ hc
  · rw [Cert.ReferenceIdeal.ReadP.val_main_v34_eq, (hagree c).1, (hagree c).2.1, (hagree c).2.2]
    exact Cert.ReferenceIdeal.RefValue.weight_stage _ _ _ hc
  · rw [Cert.ReferenceIdeal.ReadP.val_main_v34_eq, (hagree c).1, (hagree c).2.1, (hagree c).2.2]
    exact Cert.ReferenceIdeal.RefValue.weight_stage _ _ _ hc
  · rw [Cert.ReferenceIdeal.ReadP.val_main_v23_eq, (hagree c).1, (hagree c).2.1, (hagree c).2.2]
    exact Cert.ReferenceIdeal.RefValue.logWeight_stage _ _ _ hc

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
